-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S1x1 : Shape := ⟨2, ![1, 1]⟩
abbrev S128x128 : Shape := ⟨2, ![128, 128]⟩
abbrev S128 : Shape := ⟨1, ![128]⟩
abbrev S128x1 : Shape := ⟨2, ![128, 1]⟩
abbrev S128x8192 : Shape := ⟨2, ![128, 8192]⟩
abbrev S1x128x8192 : Shape := ⟨3, ![1, 128, 8192]⟩
abbrev S1 : Shape := ⟨1, ![1]⟩
abbrev S1x1x1 : Shape := ⟨3, ![1, 1, 1]⟩

abbrev nBuf : Space → Nat
  | .hbm => 13
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S1x8192, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S1x8192, .f32⟩
  | .local _ .vmem, ⟨4, _⟩ => ⟨S1x1, .f32⟩
  | .local _ .vmem, ⟨5, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S8192x128_S8192_d1 : S8192x128.ReducesTo [1] S8192
  h_S_ : 0 < S_.numel
  bcast_S8192_S1x8192_1 : S8192.BroadcastsInDim S1x8192 (![1] : Fin 1 → Fin S1x8192.rank)
  inb_S1x1_S1x1_0_0 : ∀ a, (![0, 0] : Fin 2 → Nat) a + S1x1.size a ≤ S1x1.size a
  h_S1x1 : 0 < S1x1.numel
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  reduces_S128x128_S128 : S128x128.Reduces [1] S128
  shapeCasts_S128_S128x1 : S128.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x1_d0_w32 : S128x1.Iotas .tc 32 [0]
  iota_S1x8192_d1_w32 : S1x8192.Iotas .tc 32 [1]
  natLt_1_32 : 1 < 32
  shapeCasts_S128x8192_S1x128x8192 : S128x8192.ShapeCasts S1x128x8192
  reduces_S1x128x8192_S1 : S1x128x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .i1⟩
  | .hbm, ⟨47, _⟩ => ⟨S8192x1, .i32⟩
  | .hbm, ⟨48, _⟩ => ⟨S1x8192, .i32⟩
  | .hbm, ⟨49, _⟩ => ⟨S8192x8192, .i32⟩
  | .hbm, ⟨50, _⟩ => ⟨S8192x8192, .i32⟩
  | .hbm, ⟨51, _⟩ => ⟨S8192x8192, .i1⟩
  | .hbm, ⟨52, _⟩ => ⟨S8192x8192, .i32⟩
  | .hbm, ⟨53, _⟩ => ⟨S_, .i32⟩
  | .hbm, ⟨54, _⟩ => ⟨S_, .i32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S_, .f32⟩
  | .hbm, ⟨76, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_2 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_call1_v0 : Ref sig .tc := ⟨.hbm, 57, rfl⟩
abbrev main_call1_v1 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  bcast_S_S8192 : S_.BroadcastsInDim S8192 (![] : Fin 0 → Fin S8192.rank)
  natLt_1_32 : 1 < 32
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BData.lean ====
/-
  The pairwise-distance kernel's pipeline, as data (any float instance `F`).

  The launch walks 64 row tiles of the input `x : f32[8192, 128]`. At tile `t` the body is handed the
  tile's 128 rows (window 0), all of `x` again (window 1, the same array), the row of squared norms
  `sq_col : f32[1, 8192]` that @main computed before the launch (window 2), and two one-element
  accumulators (windows 3 and 4). It zeroes the accumulators at the first tile and then adds, at every
  tile, the tile's masked sum of squared distances (window 3) and of hinge terms `max (1 - d², 0)`
  (window 4). Nothing else is kept between tiles.

  Here: the arrays as the launch finds them (`V`), each window's block at a tile (`iblk`), what one
  tile adds to each accumulator as a function of the three input blocks (`tileHomo`, `step3`, `step4`),
  the accumulators after tile `n` by recursion on `n` (`acc3`, `acc4`), and the proof data `dats`.
  The two windows on `x` each hold half of the array's share.
-/
import proofs.«119142_j23682449670377_1_alg».proof.Proof.Gen.Kernel.Launch
import proofs.«119142_j23682449670377_1_alg».proof.Proof.Gen.Kernel.Skeleton
import proofs.«119142_j23682449670377_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the launch begins -/

/-- Core `c`'s buffers after @main's four operations before the launch (the squares, their row sums,
    the row of sums as a `1 × 8192` array). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One tile's contribution -/

/-- The column numbers `0 … 8191` as 32-bit words. -/
abbrev colIota : IVec S1x8192 32 := iota .tc S1x8192 32 [1] iota_S1x8192_d1_w32

/-- The tile's masked sum of squared distances: over the tile's rows `r` and all columns `j` with `r` and `j`
    in the same group of four and `r ≠ j`. -/
def tileHomo (i : grid0.Coords) (x0 : Vec F S128x128 .f32) (x1 : Vec F S8192x128 .f32) (x2 : Vec F S1x8192 .f32) : F .f32 :=
  k0_pay13 (k0_pay5 x0 x1 x2) (k0_pay6 i) colIota (k0_pay7 i) (k0_pay8 i) (k0_pay9 i) 0#32

/-- Accumulator 3 after a tile: what it held plus the tile's masked sum. -/
def step3 (i : grid0.Coords) (x0 : Vec F S128x128 .f32) (x1 : Vec F S8192x128 .f32) (x2 : Vec F S1x8192 .f32) (prev : Vec F S1x1 .f32) : Vec F S1x1 .f32 :=
  k0_pay1 (tileHomo i x0 x1 x2) prev

/-- Accumulator 4 after a tile: what it held plus the tile's sum of `max (1 - d², 0)` over the pairs whose row group
    comes strictly before the column group. -/
def step4 (i : grid0.Coords) (x0 : Vec F S128x128 .f32) (x1 : Vec F S8192x128 .f32) (x2 : Vec F S1x8192 .f32) (prev : Vec F S1x1 .f32) : Vec F S1x1 .f32 :=
  k0_pay2 (k0_pay5 x0 x1 x2) (k0_pay12 colIota (k0_pay7 i) (k0_pay8 i) (k0_pay9 i) 0#32) (k0_pay14 (F := F)) prev

/-! ## The accumulators after each tile -/

/-- Accumulator 3 after tile `n`: from zero at the first tile. -/
def acc3 (c : Dev nD) : (n : ℕ) → n < cfg0.N → Vec F S1x1 .f32
  | 0, hn => step3 (grid0.coords ⟨0, hn⟩) (iblk m c 0 ⟨0, hn⟩) (iblk m c 1 ⟨0, hn⟩) (iblk m c 2 ⟨0, hn⟩) (k0_pay3 (F := F))
  | n + 1, hn => step3 (grid0.coords ⟨n + 1, hn⟩) (iblk m c 0 ⟨n + 1, hn⟩) (iblk m c 1 ⟨n + 1, hn⟩) (iblk m c 2 ⟨n + 1, hn⟩) (acc3 c n (Nat.lt_of_succ_lt hn))

/-- Accumulator 4 after tile `n`: from zero at the first tile. -/
def acc4 (c : Dev nD) : (n : ℕ) → n < cfg0.N → Vec F S1x1 .f32
  | 0, hn => step4 (grid0.coords ⟨0, hn⟩) (iblk m c 0 ⟨0, hn⟩) (iblk m c 1 ⟨0, hn⟩) (iblk m c 2 ⟨0, hn⟩) (k0_pay4 (F := F))
  | n + 1, hn => step4 (grid0.coords ⟨n + 1, hn⟩) (iblk m c 0 ⟨n + 1, hn⟩) (iblk m c 1 ⟨n + 1, hn⟩) (iblk m c 2 ⟨n + 1, hn⟩) (acc4 c n (Nat.lt_of_succ_lt hn))

theorem acc3_zero (c : Dev nD) (hn : 0 < cfg0.N) :
    acc3 m c 0 hn = step3 (grid0.coords ⟨0, hn⟩) (iblk m c 0 ⟨0, hn⟩) (iblk m c 1 ⟨0, hn⟩) (iblk m c 2 ⟨0, hn⟩) (k0_pay3 (F := F)) := rfl
theorem acc3_succ (c : Dev nD) (n : ℕ) (hn : n + 1 < cfg0.N) :
    acc3 m c (n + 1) hn = step3 (grid0.coords ⟨n + 1, hn⟩) (iblk m c 0 ⟨n + 1, hn⟩) (iblk m c 1 ⟨n + 1, hn⟩) (iblk m c 2 ⟨n + 1, hn⟩) (acc3 m c n (Nat.lt_of_succ_lt hn)) := rfl
theorem acc4_zero (c : Dev nD) (hn : 0 < cfg0.N) :
    acc4 m c 0 hn = step4 (grid0.coords ⟨0, hn⟩) (iblk m c 0 ⟨0, hn⟩) (iblk m c 1 ⟨0, hn⟩) (iblk m c 2 ⟨0, hn⟩) (k0_pay4 (F := F)) := rfl
theorem acc4_succ (c : Dev nD) (n : ℕ) (hn : n + 1 < cfg0.N) :
    acc4 m c (n + 1) hn = step4 (grid0.coords ⟨n + 1, hn⟩) (iblk m c 0 ⟨n + 1, hn⟩) (iblk m c 1 ⟨n + 1, hn⟩) (iblk m c 2 ⟨n + 1, hn⟩) (acc4 m c n (Nat.lt_of_succ_lt hn)) := rfl

/-! ## The proof data -/

/-- The pipeline's proof data on core `c`: the arrays as the launch finds them; after the body at tile `t` each
    input's buffer still at its block and the accumulators at `acc3`, `acc4`; between tiles only the scoped rest and
    the generator register; nothing owed; the two windows on `x` at half its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc3 m c t.val t.isLt
    | ⟨4, _⟩ => acc4 m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = acc3 m c t.val t.isLt := by dsimp only [dats]
theorem after0_4 (c : Dev nD) (t : Fin cfg0.N) : (dats m 0 c).after 4 t = acc4 m c t.val t.isLt := by dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]

end Cert.Kernel.Hand

end
-- ==== Proof.BBody.lean ====
/-
  The body at one tile meets the pipeline's obligation for the proof data `dats`.

  The body has two control cases. At the first tile it stores zero into both accumulators and then, like
  at every other tile, loads each accumulator, adds the tile's masked sum to it and stores the result. So
  the body run from input blocks `x0 x1 x2` leaves accumulator 3 at `step3 i x0 x1 x2 z` and accumulator 4
  at `step4 i x0 x1 x2 z`, where `z` is the zero block at the first tile and what the accumulator held at
  any other. Every load and store is through the whole one-element block, so what a buffer reads after
  its stores is the last store's payload.

  The inputs' buffers hold their blocks at every tile, fetched there or not; an accumulator's buffer at a
  later tile holds what the tile before left, since it is written back after the last tile only. With
  `acc3`, `acc4` defined by exactly this recursion, the obligation follows tile by tile.
-/
import proofs.«119142_j23682449670377_1_alg».proof.Proof.BData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The reset condition -/

/-- The condition under which the body zeroes the accumulators, from the grid coordinates. -/
abbrev cond0 (i : grid0.Coords) : Prop := (Scalar.cmpi .ne (Scalar.extui (Scalar.cmpi .eq (BitVec.ofNat 32 (i 0).val) 0#32)) 0#32) = 1#1

/-- It holds at the first tile only: decided over the 64 tiles. -/
theorem hcond0 : ∀ t : Fin cfg0.N, cond0 (grid0.coords t) ↔ t.val % 64 = 0 :=
  (by decide +kernel : ∀ t : Fin grid0.N, cond0 (grid0.coords t) ↔ t.val % 64 = 0)

/-! ## Reading a buffer back after a whole-block store -/

/-- What a buffer reads after a list of stores of which the last is through the whole block: that store's payload. -/
theorem read_writes_whole_last {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-! ## The body on any whole staging buffers -/

set_option maxHeartbeats 1000000 in
/-- THE FIRST TILE. With the reset condition true: from the inputs' buffers at `x0 x1 x2` and the accumulators' at
    anything, the body runs to the inputs' as they were and the accumulators at one step from the zero block. -/
theorem runA (c : Dev nD) (i : grid0.Coords)
    (arg1 : Memref sig .tc .vmem S128x128 .f32) (harg1 : arg1.IsWhole)
    (arg2 : Memref sig .tc .vmem S8192x128 .f32) (harg2 : arg2.IsWhole)
    (arg3 : Memref sig .tc .vmem S1x8192 .f32) (harg3 : arg3.IsWhole)
    (arg4 : Memref sig .tc .vmem S1x1 .f32) (harg4 : arg4.IsWhole)
    (arg5 : Memref sig .tc .vmem S1x1 .f32) (harg5 : arg5.IsWhole) (hc0 : cond0 i)
    (x0 : Vec F S128x128 .f32) (x1 : Vec F S8192x128 .f32) (x2 : Vec F S1x8192 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (step3 i x0 x1 x2 (k0_pay3 (F := F)))
            ∗ owns (c : Thread nD τ) arg5 fullShare (step4 i x0 x1 x2 (k0_pay4 (F := F)))) -∗ K ⟨⟩))
      ⊢ wp frame (wpE (defs₀ (F := F)) Variants.none c none) E (cc0__metric_loss_kernel i arg1 harg1 arg2 harg2 arg3 harg3 arg4 harg4 arg5 harg5) K := by
  have hz : (![0, 0] : Fin S1x1.rank → Nat) = fun _ => 0 := by funext a; fin_cases a <;> rfl
  simp only [cc0__metric_loss_kernel_eq_skeleton]; unfold cc0__metric_loss_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    refine (read_writes_whole_last (S := S1x1) _ _ hz _ _ _).trans ?_
    simp only [View.readAt_eq_ld, harg1.read_unread, harg2.read_unread, harg3.read_unread,
      View.ld_unit_zero (S := S128x128) hz, View.ld_unit_zero (S := S8192x128) hz, View.ld_unit_zero (S := S1x8192) hz,
      View.readCov_unit_zero (S := S1x1) _ hz]
    rfl
  · iexists _; isplitr
    swap; · iexact H4
    ipureintro
    sl_unfold_words
    refine (read_writes_whole_last (S := S1x1) _ _ hz _ _ _).trans ?_
    simp only [View.readAt_eq_ld, harg1.read_unread, harg2.read_unread, harg3.read_unread,
      View.ld_unit_zero (S := S128x128) hz, View.ld_unit_zero (S := S8192x128) hz, View.ld_unit_zero (S := S1x8192) hz,
      View.readCov_unit_zero (S := S1x1) _ hz]
    rfl

set_option maxHeartbeats 1000000 in
/-- EVERY OTHER TILE. With the reset condition false: from the inputs' buffers at `x0 x1 x2` and the accumulators' at
    `prev3`, `prev4`, the body runs to the inputs' as they were and the accumulators at one step from `prev3`, `prev4`. -/
theorem runB (c : Dev nD) (i : grid0.Coords)
    (arg1 : Memref sig .tc .vmem S128x128 .f32) (harg1 : arg1.IsWhole)
    (arg2 : Memref sig .tc .vmem S8192x128 .f32) (harg2 : arg2.IsWhole)
    (arg3 : Memref sig .tc .vmem S1x8192 .f32) (harg3 : arg3.IsWhole)
    (arg4 : Memref sig .tc .vmem S1x1 .f32) (harg4 : arg4.IsWhole)
    (arg5 : Memref sig .tc .vmem S1x1 .f32) (harg5 : arg5.IsWhole) (hc0 : ¬cond0 i)
    (x0 : Vec F S128x128 .f32) (x1 : Vec F S8192x128 .f32) (x2 : Vec F S1x8192 .f32)
    (prev3 prev4 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare prev3 ∗ owns (c : Thread nD τ) arg5 fullShare prev4
        ∗ (iprop(owns (c : Thread nD τ) arg1 fullShare x0 ∗ owns (c : Thread nD τ) arg2 fullShare x1 ∗ owns (c : Thread nD τ) arg3 fullShare x2
            ∗ owns (c : Thread nD τ) arg4 fullShare (step3 i x0 x1 x2 prev3)
            ∗ owns (c : Thread nD τ) arg5 fullShare (step4 i x0 x1 x2 prev4)) -∗ K ⟨⟩))
      ⊢ wp frame (wpE (defs₀ (F := F)) Variants.none c none) E (cc0__metric_loss_kernel i arg1 harg1 arg2 harg2 arg3 harg3 arg4 harg4 arg5 harg5) K := by
  have hz : (![0, 0] : Fin S1x1.rank → Nat) = fun _ => 0 := by funext a; fin_cases a <;> rfl
  simp only [cc0__metric_loss_kernel_eq_skeleton]; unfold cc0__metric_loss_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    refine (read_writes_whole_last (S := S1x1) _ _ hz _ _ _).trans ?_
    simp only [View.readAt_eq_ld, harg1.read_unread, harg2.read_unread, harg3.read_unread, harg4.read_unread, harg5.read_unread,
      View.ld_unit_zero (S := S128x128) hz, View.ld_unit_zero (S := S8192x128) hz, View.ld_unit_zero (S := S1x8192) hz,
      View.ld_unit_zero (S := S1x1) hz]
    rfl
  · iexists _; isplitr
    swap; · iexact H4
    ipureintro
    sl_unfold_words
    refine (read_writes_whole_last (S := S1x1) _ _ hz _ _ _).trans ?_
    simp only [View.readAt_eq_ld, harg1.read_unread, harg2.read_unread, harg3.read_unread, harg4.read_unread, harg5.read_unread,
      View.ld_unit_zero (S := S128x128) hz, View.ld_unit_zero (S := S8192x128) hz, View.ld_unit_zero (S := S1x8192) hz,
      View.ld_unit_zero (S := S1x1) hz]
    rfl

/-! ## What the buffers hold when the body is called -/

/-- Each input's current buffer holds its block at every tile, fetched there or not: unfetched, the block index has
    not moved since the tile that fetched it. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- At a later tile an accumulator's current buffer holds what the body left at the tile before: the buffer is
    written back after the last tile only. -/
theorem before0_3_B (c : Dev nD) (t : Fin cfg0.N) (h0 : ¬t.val % 64 = 0) (d) :
    (dats m 0 c).before 3 t d = acc3 m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 64 = 0) (d) :
    (dats m 0 c).before 4 t d = acc4 m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The accumulators' recursion read at a tile -/

theorem acc3_A (c : Dev nD) (t : Fin cfg0.N) (h0 : t.val = 0) :
    acc3 m c t.val t.isLt = step3 (grid0.coords t) (iblk m c 0 t) (iblk m c 1 t) (iblk m c 2 t) (k0_pay3 (F := F)) := by
  obtain ⟨n, hn⟩ := t
  cases n with
  | zero => exact rfl
  | succ n => exact absurd h0 (Nat.succ_ne_zero n)
theorem acc4_A (c : Dev nD) (t : Fin cfg0.N) (h0 : t.val = 0) :
    acc4 m c t.val t.isLt = step4 (grid0.coords t) (iblk m c 0 t) (iblk m c 1 t) (iblk m c 2 t) (k0_pay4 (F := F)) := by
  obtain ⟨n, hn⟩ := t
  cases n with
  | zero => exact rfl
  | succ n => exact absurd h0 (Nat.succ_ne_zero n)
theorem acc3_B (c : Dev nD) (t : Fin cfg0.N) (h0 : t.val ≠ 0) :
    acc3 m c t.val t.isLt = step3 (grid0.coords t) (iblk m c 0 t) (iblk m c 1 t) (iblk m c 2 t)
      (acc3 m c (t.val - 1) (Nat.lt_of_le_of_lt (Nat.sub_le _ _) t.isLt)) := by
  obtain ⟨n, hn⟩ := t
  cases n with
  | zero => exact absurd rfl h0
  | succ n => exact rfl
theorem acc4_B (c : Dev nD) (t : Fin cfg0.N) (h0 : t.val ≠ 0) :
    acc4 m c t.val t.isLt = step4 (grid0.coords t) (iblk m c 0 t) (iblk m c 1 t) (iblk m c 2 t)
      (acc4 m c (t.val - 1) (Nat.lt_of_le_of_lt (Nat.sub_le _ _) t.isLt)) := by
  obtain ⟨n, hn⟩ := t
  cases n with
  | zero => exact absurd rfl h0
  | succ n => exact rfl

/-! ## The obligation at a tile -/

/-- What the body is called with at tile `t`, the five windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 800000 in
/-- The body at any tile: the inputs' buffers hold their blocks; the closed form of the reset condition says which
    case the tile is in; at a later tile the accumulators' buffers hold what the tile before left; so the case's run
    applies, and its result is the recursion's value at this tile. The invariant passes through unread and the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [acc3_A m c t (by omega), acc4_A m c t (by omega)]
    iintro ⟨HΦ, Ho, ⟨%d0, H0⟩, ⟨%d1, H1⟩, ⟨%d2, H2⟩, ⟨%d3, H3⟩, ⟨%d4, H4⟩⟩
    iapply (runA c (grid0.coords t) _ _ _ _ _ _ _ _ _ _ ((hcond0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc3_B m c t (by omega), acc4_B m c t (by omega)]
    simp only [before0_3_B m c t h0, before0_4_B m c t h0]
    iintro ⟨HΦ, Ho, ⟨%d0, H0⟩, ⟨%d1, H1⟩, ⟨%d2, H2⟩, ⟨%d3, H3⟩, ⟨%d4, H4⟩⟩
    iapply (runB c (grid0.coords t) _ _ _ _ _ _ _ _ _ _ (fun h => h0 ((hcond0 t).mp h)) (iblk m c 0 t) (iblk m c 1 t) (iblk m c 2 t)
      (acc3 m c (t.val - 1) (Nat.lt_of_le_of_lt (Nat.sub_le _ _) t.isLt)) (acc4 m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- At every tile: from the input buffers at their blocks and the accumulators at what the tile before left (anything at
    the first tile, where the body resets them), the body runs to the inputs unchanged and the accumulators at
    `acc3` / `acc4` of this tile. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BLaunch.lean ====
/-
  The whole run of @main from the body's obligation: the four operations before the launch, the launch over the
  64 tiles, the six operations after it.
-/
import proofs.«119142_j23682449670377_1_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result from accumulator 3's final contents: reshaped to a scalar and divided by 24576. -/
def res6 (a : Vec F S1x1 .f32) : Vec F S_ .f32 :=
  Host.divf (shapeCast S_ a shapeCasts_S1x1_S_) (constant S_ .f32 0x46C00000#32)
/-- The second result from accumulator 4's final contents: reshaped to a scalar and divided by 33538048. -/
def res7 (a : Vec F S1x1 .f32) : Vec F S_ .f32 :=
  Host.divf (shapeCast S_ a shapeCasts_S1x1_S_) (constant S_ .f32 0x4BFFE000#32)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the four operations, the launch, then the six operations: it reduces to the launch continued by the six,
    at the contents after the four. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- No operation before the launch writes the argument. -/
theorem V_main_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  after_results

/-- The windows' arrays one by one: the argument at its two halves (windows 0 and 1), the row of squared norms and the
    two accumulators whole. -/
theorem arrays_chain (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg0) ↦{fullShare.left} Fw 0) ∗ (((c.tc : Thread nD τ).loc main_arg0) ↦{fullShare.right} Fw 1)
          ∗ (((c.tc : Thread nD τ).loc main_v2) ↦{fullShare} Fw 2) ∗ (((c.tc : Thread nD τ).loc main_v3_0) ↦{fullShare} Fw 3)
          ∗ (((c.tc : Thread nD τ).loc main_v3_1) ↦{fullShare} Fw 4)) := by
  unfold Dat.arrays
  rw [bigSep_W0]
  rw [(arr_whole0 0).set_eq_univ, (arr_whole0 2).set_eq_univ, (arr_whole0 3).set_eq_univ, (arr_whole0 4).set_eq_univ]
  rfl

/-- The four buffers behind the five windows, whole, make the windows' arrays at entry: the argument's full share is
    its left half (window 0) and its right half (window 1). -/
theorem hsplit (c : Dev nD) : (Pipeline.arrBufs spec0 c (V m c) : sProp 𝕄) ⊢ (dats m 0 c).arrays ((dats m 0 c).arrAt · 0) := by
  rw [arrays_chain]
  unfold Pipeline.arrBufs
  rw [BI.bigSep_eq_bigSepL_of_eq [main_arg0, main_v2, main_v3_0, main_v3_1] (by decide) (by decide)]
  show iprop((((c.tc : Thread nD τ).loc main_arg0) ↦{fullShare} V m c main_arg0) ∗ (((c.tc : Thread nD τ).loc main_v2) ↦{fullShare} V m c main_v2)
        ∗ (((c.tc : Thread nD τ).loc main_v3_0) ↦{fullShare} V m c main_v3_0) ∗ (((c.tc : Thread nD τ).loc main_v3_1) ↦{fullShare} V m c main_v3_1))
      ⊢ iprop((((c.tc : Thread nD τ).loc main_arg0) ↦{fullShare.left} V m c main_arg0) ∗ (((c.tc : Thread nD τ).loc main_arg0) ↦{fullShare.right} V m c main_arg0)
        ∗ (((c.tc : Thread nD τ).loc main_v2) ↦{fullShare} V m c main_v2) ∗ (((c.tc : Thread nD τ).loc main_v3_0) ↦{fullShare} V m c main_v3_0)
        ∗ (((c.tc : Thread nD τ).loc main_v3_1) ↦{fullShare} V m c main_v3_1))
  iintro ⟨H0, H2, H3, H4⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  iexact H4

/-! ## The six operations after the launch -/

/-- The buffers the six operations run within: the two accumulators' arrays and the nine buffers no window stages. -/
abbrev tailL : List (Ref sig .tc) := [main_v3_0, main_v3_1, main_v0, main_cst, main_v1, main_v4, main_v5, main_cst_0, main_v6, main_cst_1, main_v7]
/-- The same as device buffers. -/
abbrev tailS : Finset (DevRef τ sig) := tailL.toFinset.map ⟨Proc.devRef (sig := sig) .tc, Proc.devRef_injective _⟩

theorem mem_tailS {r : Ref sig .tc} (h : r ∈ tailL) : Proc.devRef (τ := τ) .tc r ∈ (tailS : Finset (DevRef τ sig)) :=
  Finset.mem_map_of_mem _ (List.mem_toFinset.mpr h)

/-- Those buffers held whole at a valuation, one by one. -/
theorem held_tailS (c : Dev nD) (W : Valuation τ sig (Elt F)) :
    (StableHlo.held (c.tc : Thread nD τ) tailS W : sProp 𝕄)
      = iprop((((c.tc : Thread nD τ).loc main_v3_0) ↦{fullShare} W (Proc.devRef .tc main_v3_0))
          ∗ (((c.tc : Thread nD τ).loc main_v3_1) ↦{fullShare} W (Proc.devRef .tc main_v3_1))
          ∗ (((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_v4) ↦{fullShare} W (Proc.devRef .tc main_v4))
          ∗ (((c.tc : Thread nD τ).loc main_v5) ↦{fullShare} W (Proc.devRef .tc main_v5))
          ∗ (((c.tc : Thread nD τ).loc main_cst_0) ↦{fullShare} W (Proc.devRef .tc main_cst_0))
          ∗ (((c.tc : Thread nD τ).loc main_v6) ↦{fullShare} W (Proc.devRef .tc main_v6))
          ∗ (((c.tc : Thread nD τ).loc main_cst_1) ↦{fullShare} W (Proc.devRef .tc main_cst_1))
          ∗ (((c.tc : Thread nD τ).loc main_v7) ↦{fullShare} W (Proc.devRef .tc main_v7))) := by
  unfold StableHlo.held tailS
  rw [bigSep_map, BI.bigSep_eq_bigSepL tailL (by decide)]
  rfl

/-- Each of the six operations touches those buffers only. -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl
  · rw [StableHlo.reshape_bufs]; intro b hb
    simp only [Finset.mem_insert, Finset.mem_singleton] at hb
    rcases hb with rfl | rfl <;> exact mem_tailS (by decide)
  · rw [StableHlo.reshape_bufs]; intro b hb
    simp only [Finset.mem_insert, Finset.mem_singleton] at hb
    rcases hb with rfl | rfl <;> exact mem_tailS (by decide)
  · rw [StableHlo.nullary_bufs]; intro b hb
    simp only [Finset.mem_singleton] at hb
    subst hb; exact mem_tailS (by decide)
  · rw [StableHlo.binary_bufs]; intro b hb
    simp only [Finset.mem_insert, Finset.mem_singleton] at hb
    rcases hb with rfl | rfl | rfl <;> exact mem_tailS (by decide)
  · rw [StableHlo.nullary_bufs]; intro b hb
    simp only [Finset.mem_singleton] at hb
    subst hb; exact mem_tailS (by decide)
  · rw [StableHlo.binary_bufs]; intro b hb
    simp only [Finset.mem_insert, Finset.mem_singleton] at hb
    rcases hb with rfl | rfl | rfl <;> exact mem_tailS (by decide)

/-- And allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What the six operations leave, from any contents `W`: the accumulators' arrays untouched, the two results the
    reshaped accumulators divided by the two constants. -/
theorem after_tail (W : Valuation τ sig (Elt F)) :
    StableHlo.after (List.flatten [hostOps1]) W (Proc.devRef .tc main_v3_0) = W (Proc.devRef .tc main_v3_0)
    ∧ StableHlo.after (List.flatten [hostOps1]) W (Proc.devRef .tc main_v3_1) = W (Proc.devRef .tc main_v3_1)
    ∧ StableHlo.after (List.flatten [hostOps1]) W (Proc.devRef .tc main_v6) = res6 (W (Proc.devRef .tc main_v3_0))
    ∧ StableHlo.after (List.flatten [hostOps1]) W (Proc.devRef .tc main_v7) = res7 (W (Proc.devRef .tc main_v3_1)) := by
  simp only [List.flatten_cons, List.flatten_nil, List.append_nil]
  refine ⟨?_, ?_, ?_, ?_⟩
  · after_results
  · after_results
  · after_results <;> rfl
  · after_results <;> rfl

/-- The contents the six operations start from on core `c`: the two accumulators' arrays at what the launch wrote back,
    every other buffer as the launch found it. -/
def Wt (c : Dev nD) : Valuation τ sig (Elt F) :=
  Function.update (Function.update (V0 m c) (Proc.devRef .tc main_v3_0) ((dats m 0 c).arrAt 3 cfg0.N))
    (Proc.devRef .tc main_v3_1) ((dats m 0 c).arrAt 4 cfg0.N)

theorem Wt_30 (c : Dev nD) : Wt m c (Proc.devRef .tc main_v3_0) = (dats m 0 c).arrAt 3 cfg0.N := by
  unfold Wt
  rw [Function.update_of_ne (StableHlo.devRef_ne_of_ne (by decide)), Function.update_self]
theorem Wt_31 (c : Dev nD) : Wt m c (Proc.devRef .tc main_v3_1) = (dats m 0 c).arrAt 4 cfg0.N := by
  unfold Wt
  rw [Function.update_self]
theorem Wt_ne (c : Dev nD) (r : Ref sig .tc) (h0 : r ≠ main_v3_0) (h1 : r ≠ main_v3_1) : Wt m c (Proc.devRef .tc r) = V m c r := by
  unfold Wt
  rw [Function.update_of_ne (StableHlo.devRef_ne_of_ne h1), Function.update_of_ne (StableHlo.devRef_ne_of_ne h0)]

/-- Those buffers at the start of the six operations, one by one. -/
theorem held_Wt (c : Dev nD) :
    (StableHlo.held (c.tc : Thread nD τ) tailS (Wt m c) : sProp 𝕄)
      = iprop((((c.tc : Thread nD τ).loc main_v3_0) ↦{fullShare} (dats m 0 c).arrAt 3 cfg0.N) ∗ (((c.tc : Thread nD τ).loc main_v3_1) ↦{fullShare} (dats m 0 c).arrAt 4 cfg0.N)
          ∗ (((c.tc : Thread nD τ).loc main_v0) ↦{fullShare} V m c main_v0)
          ∗ (((c.tc : Thread nD τ).loc main_cst) ↦{fullShare} V m c main_cst)
          ∗ (((c.tc : Thread nD τ).loc main_v1) ↦{fullShare} V m c main_v1)
          ∗ (((c.tc : Thread nD τ).loc main_v4) ↦{fullShare} V m c main_v4)
          ∗ (((c.tc : Thread nD τ).loc main_v5) ↦{fullShare} V m c main_v5)
          ∗ (((c.tc : Thread nD τ).loc main_cst_0) ↦{fullShare} V m c main_cst_0)
          ∗ (((c.tc : Thread nD τ).loc main_v6) ↦{fullShare} V m c main_v6)
          ∗ (((c.tc : Thread nD τ).loc main_cst_1) ↦{fullShare} V m c main_cst_1)
          ∗ (((c.tc : Thread nD τ).loc main_v7) ↦{fullShare} V m c main_v7)) := by
  rw [held_tailS, Wt_30, Wt_31, Wt_ne m c main_v0 (by decide) (by decide), Wt_ne m c main_cst (by decide) (by decide), Wt_ne m c main_v1 (by decide) (by decide), Wt_ne m c main_v4 (by decide) (by decide), Wt_ne m c main_v5 (by decide) (by decide), Wt_ne m c main_cst_0 (by decide) (by decide), Wt_ne m c main_v6 (by decide) (by decide), Wt_ne m c main_cst_1 (by decide) (by decide), Wt_ne m c main_v7 (by decide) (by decide)]

/-- And at their end: the accumulators' arrays as they were, the two results computed; the rest is dropped. -/
theorem held_after (c : Dev nD) :
    (StableHlo.held (c.tc : Thread nD τ) tailS (StableHlo.after (List.flatten [hostOps1]) (Wt m c)) : sProp 𝕄)
      ⊢ iprop((((c.tc : Thread nD τ).loc main_v3_0) ↦{fullShare} (dats m 0 c).arrAt 3 cfg0.N) ∗ (((c.tc : Thread nD τ).loc main_v3_1) ↦{fullShare} (dats m 0 c).arrAt 4 cfg0.N)
          ∗ (((c.tc : Thread nD τ).loc main_v6) ↦{fullShare} res6 ((dats m 0 c).arrAt 3 cfg0.N)) ∗ (((c.tc : Thread nD τ).loc main_v7) ↦{fullShare} res7 ((dats m 0 c).arrAt 4 cfg0.N))) := by
  rw [held_tailS, (after_tail _).1, (after_tail _).2.1, (after_tail _).2.2.1, (after_tail _).2.2.2, Wt_30, Wt_31]
  iintro ⟨G30, G31, -, -, -, -, -, -, G6, -, G7⟩
  isplitl [G30]; · iexact G30
  isplitl [G31]; · iexact G31
  isplitl [G6]; · iexact G6
  iexact G7

set_option backward.isDefEq.respectTransparency.types false in
/-- The six operations after the launch, from its exit: they read the two accumulators' arrays and write the two results. -/
theorem htail (c : Dev nD) (Q' : PUnit → sProp 𝕄) :
    iprop((iprop((dats m 0 c).arrays ((dats m 0 c).arrAt · cfg0.N)
            ∗ (((c.tc : Thread nD τ).loc main_v6) ↦{fullShare} res6 ((dats m 0 c).arrAt 3 cfg0.N))
            ∗ (((c.tc : Thread nD τ).loc main_v7) ↦{fullShare} res7 ((dats m 0 c).arrAt 4 cfg0.N))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ (Pipeline.chain [StableHlo.seq hostOps1]) Q' := by
  rw [arrays_chain, unscopedRest0_eq]
  iintro ⟨Hk, Hb, ⟨H0, H1, H2, H3, H4⟩, R0, R1, R2, R3, R4, R5, R6, R7, R8⟩
  ihave Hh := (Entails.of_eq (held_Wt m c).symm) $$ [H3 H4 R0 R1 R2 R3 R4 R5 R6 R7 R8]
  · isplitl [H3]; · iexact H3
    isplitl [H4]; · iexact H4
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iapply (Pipeline.wp_seqs_then (pcfgs (F := F)) defs₀ Variants.none c tailS [] [hostOps1] tail_sub tail_fresh (Wt m c)) $$ [Hb Hh]
  · isplitl [Hb]; · iexact Hb
    iexact Hh
  iintro ⟨Hb, Hh⟩
  rw [Pipeline.chain_nil, wp_pure]
  imodintro
  iapply Hk
  ihave Hh' := (held_after m c) $$ Hh
  icases Hh' with ⟨G30, G31, G6, G7⟩
  isplitl [H0 H1 H2 G30 G31]
  · isplitl [H0]; · iexact H0
    isplitl [H1]; · iexact H1
    isplitl [H2]; · iexact H2
    isplitl [G30]; · iexact G30
    iexact G31
  isplitl [G6]; · iexact G6
  iexact G7

/-- Every weakly fair execution of @main terminates without a fault; the two results hold `res6` / `res7` of what the
    pipeline wrote back for windows 3 and 4, and the argument is unchanged. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v6) = res6 ((dats m 0 c).arrAt 3 cfg0.N)
      ∧ r.2.mem ((c.tc : Thread nD τ).loc main_v7) = res7 ((dats m 0 c).arrAt 4 cfg0.N)
      ∧ r.2.mem ((c.tc : Thread nD τ).loc main_arg0) = m ((c.tc : Thread nD τ).loc main_arg0)) := by
  classical
  exact Pipeline.θ_run_region_pf_tail (fun p => (cfgs p).toPCfg) (fun p => (cfgs p).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => iprop((((c.tc : Thread nD τ).loc main_v6) ↦{fullShare} res6 ((dats m 0 c).arrAt 3 cfg0.N))
            ∗ (((c.tc : Thread nD τ).loc main_v7) ↦{fullShare} res7 ((dats m 0 c).arrAt 4 cfg0.N))))
    (hX := fun c => by
      rw [Pipeline.unscopedRestP_none]
      iintro ⟨HU, -, -, -, Hp, -⟩; imodintro
      isplitl [Hp]; · iexists _; iexact Hp
      iexact HU)
    (hin := fun c => by
      show _ ⊢ (Pipeline.ΦA spec0 c : sProp 𝕄)
      unfold Pipeline.ΦA
      iintro ⟨Hp, -, Hr⟩
      isplitl [Hr] <;> iassumption)
    (hout := fun c => by
      show (Pipeline.ΦA spec0 c : sProp 𝕄) ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_v6) = res6 ((dats m 0 c).arrAt 3 cfg0.N)
      ∧ s.mem ((c.tc : Thread nD τ).loc main_v7) = res7 ((dats m 0 c).arrAt 4 cfg0.N))
    (hY := fun c s' => by
      iintro ⟨-, ⟨H6, H7⟩, HSI⟩
      icombine HSI H6 gives %h6
      icombine HSI H7 gives %h7
      imodintro
      isplitr
      · ipureintro; exact ⟨Buf.eq_of_forall_mem_univ h6, Buf.eq_of_forall_mem_univ h7⟩
      · iexact HSI)
    (hQ := fun s h c => ⟨(h c).2.2.1, (h c).2.2.2,
      ((h c).1 0).trans (((dats m 0 c).arrAt_in 0 rfl _).trans ((A_eq m c 0).trans (V_main_arg0 m c)))⟩)

end Cert.Kernel.Hand

end
-- ==== Proof.KData.lean ====
/-
  The pairwise-distance kernel's pipeline, as data (any float instance `F`).

  The launch walks 64 row tiles of the input `x : f32[8192, 128]`. At tile `t` the body is handed the
  tile's 128 rows (window 0), all of `x` again (window 1, the same array), the row of squared norms
  `sq_col : f32[1, 8192]` that @main computed before the launch (window 2), and two one-element
  accumulators (windows 3 and 4). It zeroes the accumulators at the first tile and then adds, at every
  tile, the tile's masked sum of squared distances (window 3) and of hinge terms `max (1 - d², 0)`
  (window 4). Nothing else is kept between tiles.

  Here: the arrays as the launch finds them (`V`), each window's block at a tile (`iblk`), what one
  tile adds to each accumulator as a function of the three input blocks (`tileHomo`, `step3`, `step4`),
  the accumulators after tile `n` by recursion on `n` (`acc3`, `acc4`), and the proof data `dats`.
  The two windows on `x` each hold half of the array's share.
-/
import proofs.«119142_j23682449670377_1_alg».proof.Proof.Gen.KernelIdeal.Launch
import proofs.«119142_j23682449670377_1_alg».proof.Proof.Gen.KernelIdeal.Skeleton
import proofs.«119142_j23682449670377_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the launch begins -/

/-- Core `c`'s buffers after @main's four operations before the launch (the squares, their row sums,
    the row of sums as a `1 × 8192` array). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One tile's contribution -/

/-- The column numbers `0 … 8191` as 32-bit words. -/
abbrev colIota : IVec S1x8192 32 := iota .tc S1x8192 32 [1] iota_S1x8192_d1_w32

/-- The tile's masked sum of squared distances: over the tile's rows `r` and all columns `j` with `r` and `j`
    in the same group of four and `r ≠ j`. -/
def tileHomo (i : grid0.Coords) (x0 : Vec F S128x128 .f32) (x1 : Vec F S8192x128 .f32) (x2 : Vec F S1x8192 .f32) : F .f32 :=
  k0_pay13 (k0_pay5 x0 x1 x2) (k0_pay6 i) colIota (k0_pay7 i) (k0_pay8 i) (k0_pay9 i) 0#32

/-- Accumulator 3 after a tile: what it held plus the tile's masked sum. -/
def step3 (i : grid0.Coords) (x0 : Vec F S128x128 .f32) (x1 : Vec F S8192x128 .f32) (x2 : Vec F S1x8192 .f32) (prev : Vec F S1x1 .f32) : Vec F S1x1 .f32 :=
  k0_pay1 (tileHomo i x0 x1 x2) prev

/-- Accumulator 4 after a tile: what it held plus the tile's sum of `max (1 - d², 0)` over the pairs whose row group
    comes strictly before the column group. -/
def step4 (i : grid0.Coords) (x0 : Vec F S128x128 .f32) (x1 : Vec F S8192x128 .f32) (x2 : Vec F S1x8192 .f32) (prev : Vec F S1x1 .f32) : Vec F S1x1 .f32 :=
  k0_pay2 (k0_pay5 x0 x1 x2) (k0_pay12 colIota (k0_pay7 i) (k0_pay8 i) (k0_pay9 i) 0#32) (k0_pay14 (F := F)) prev

/-! ## The accumulators after each tile -/

/-- Accumulator 3 after tile `n`: from zero at the first tile. -/
def acc3 (c : Dev nD) : (n : ℕ) → n < cfg0.N → Vec F S1x1 .f32
  | 0, hn => step3 (grid0.coords ⟨0, hn⟩) (iblk m c 0 ⟨0, hn⟩) (iblk m c 1 ⟨0, hn⟩) (iblk m c 2 ⟨0, hn⟩) (k0_pay3 (F := F))
  | n + 1, hn => step3 (grid0.coords ⟨n + 1, hn⟩) (iblk m c 0 ⟨n + 1, hn⟩) (iblk m c 1 ⟨n + 1, hn⟩) (iblk m c 2 ⟨n + 1, hn⟩) (acc3 c n (Nat.lt_of_succ_lt hn))

/-- Accumulator 4 after tile `n`: from zero at the first tile. -/
def acc4 (c : Dev nD) : (n : ℕ) → n < cfg0.N → Vec F S1x1 .f32
  | 0, hn => step4 (grid0.coords ⟨0, hn⟩) (iblk m c 0 ⟨0, hn⟩) (iblk m c 1 ⟨0, hn⟩) (iblk m c 2 ⟨0, hn⟩) (k0_pay4 (F := F))
  | n + 1, hn => step4 (grid0.coords ⟨n + 1, hn⟩) (iblk m c 0 ⟨n + 1, hn⟩) (iblk m c 1 ⟨n + 1, hn⟩) (iblk m c 2 ⟨n + 1, hn⟩) (acc4 c n (Nat.lt_of_succ_lt hn))

theorem acc3_zero (c : Dev nD) (hn : 0 < cfg0.N) :
    acc3 m c 0 hn = step3 (grid0.coords ⟨0, hn⟩) (iblk m c 0 ⟨0, hn⟩) (iblk m c 1 ⟨0, hn⟩) (iblk m c 2 ⟨0, hn⟩) (k0_pay3 (F := F)) := rfl
theorem acc3_succ (c : Dev nD) (n : ℕ) (hn : n + 1 < cfg0.N) :
    acc3 m c (n + 1) hn = step3 (grid0.coords ⟨n + 1, hn⟩) (iblk m c 0 ⟨n + 1, hn⟩) (iblk m c 1 ⟨n + 1, hn⟩) (iblk m c 2 ⟨n + 1, hn⟩) (acc3 m c n (Nat.lt_of_succ_lt hn)) := rfl
theorem acc4_zero (c : Dev nD) (hn : 0 < cfg0.N) :
    acc4 m c 0 hn = step4 (grid0.coords ⟨0, hn⟩) (iblk m c 0 ⟨0, hn⟩) (iblk m c 1 ⟨0, hn⟩) (iblk m c 2 ⟨0, hn⟩) (k0_pay4 (F := F)) := rfl
theorem acc4_succ (c : Dev nD) (n : ℕ) (hn : n + 1 < cfg0.N) :
    acc4 m c (n + 1) hn = step4 (grid0.coords ⟨n + 1, hn⟩) (iblk m c 0 ⟨n + 1, hn⟩) (iblk m c 1 ⟨n + 1, hn⟩) (iblk m c 2 ⟨n + 1, hn⟩) (acc4 m c n (Nat.lt_of_succ_lt hn)) := rfl

/-! ## The proof data -/

/-- The pipeline's proof data on core `c`: the arrays as the launch finds them; after the body at tile `t` each
    input's buffer still at its block and the accumulators at `acc3`, `acc4`; between tiles only the scoped rest and
    the generator register; nothing owed; the two windows on `x` at half its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc3 m c t.val t.isLt
    | ⟨4, _⟩ => acc4 m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = acc3 m c t.val t.isLt := by dsimp only [dats]
theorem after0_4 (c : Dev nD) (t : Fin cfg0.N) : (dats m 0 c).after 4 t = acc4 m c t.val t.isLt := by dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]

end Cert.KernelIdeal.Hand

end
-- ==== Proof.KBody.lean ====
/-
  The body at one tile meets the pipeline's obligation for the proof data `dats`.

  The body has two control cases. At the first tile it stores zero into both accumulators and then, like
  at every other tile, loads each accumulator, adds the tile's masked sum to it and stores the result. So
  the body run from input blocks `x0 x1 x2` leaves accumulator 3 at `step3 i x0 x1 x2 z` and accumulator 4
  at `step4 i x0 x1 x2 z`, where `z` is the zero block at the first tile and what the accumulator held at
  any other. Every load and store is through the whole one-element block, so what a buffer reads after
  its stores is the last store's payload.

  The inputs' buffers hold their blocks at every tile, fetched there or not; an accumulator's buffer at a
  later tile holds what the tile before left, since it is written back after the last tile only. With
  `acc3`, `acc4` defined by exactly this recursion, the obligation follows tile by tile.
-/
import proofs.«119142_j23682449670377_1_alg».proof.Proof.KData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The reset condition -/

/-- The condition under which the body zeroes the accumulators, from the grid coordinates. -/
abbrev cond0 (i : grid0.Coords) : Prop := (Scalar.cmpi .ne (Scalar.extui (Scalar.cmpi .eq (BitVec.ofNat 32 (i 0).val) 0#32)) 0#32) = 1#1

/-- It holds at the first tile only: decided over the 64 tiles. -/
theorem hcond0 : ∀ t : Fin cfg0.N, cond0 (grid0.coords t) ↔ t.val % 64 = 0 :=
  (by decide +kernel : ∀ t : Fin grid0.N, cond0 (grid0.coords t) ↔ t.val % 64 = 0)

/-! ## Reading a buffer back after a whole-block store -/

/-- What a buffer reads after a list of stores of which the last is through the whole block: that store's payload. -/
theorem read_writes_whole_last {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-! ## The body on any whole staging buffers -/

set_option maxHeartbeats 1000000 in
/-- THE FIRST TILE. With the reset condition true: from the inputs' buffers at `x0 x1 x2` and the accumulators' at
    anything, the body runs to the inputs' as they were and the accumulators at one step from the zero block. -/
theorem runA (c : Dev nD) (i : grid0.Coords)
    (arg1 : Memref sig .tc .vmem S128x128 .f32) (harg1 : arg1.IsWhole)
    (arg2 : Memref sig .tc .vmem S8192x128 .f32) (harg2 : arg2.IsWhole)
    (arg3 : Memref sig .tc .vmem S1x8192 .f32) (harg3 : arg3.IsWhole)
    (arg4 : Memref sig .tc .vmem S1x1 .f32) (harg4 : arg4.IsWhole)
    (arg5 : Memref sig .tc .vmem S1x1 .f32) (harg5 : arg5.IsWhole) (hc0 : cond0 i)
    (x0 : Vec F S128x128 .f32) (x1 : Vec F S8192x128 .f32) (x2 : Vec F S1x8192 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (step3 i x0 x1 x2 (k0_pay3 (F := F)))
            ∗ owns (c : Thread nD τ) arg5 fullShare (step4 i x0 x1 x2 (k0_pay4 (F := F)))) -∗ K ⟨⟩))
      ⊢ wp frame (wpE (defs₀ (F := F)) Variants.none c none) E (cc0__metric_loss_kernel i arg1 harg1 arg2 harg2 arg3 harg3 arg4 harg4 arg5 harg5) K := by
  have hz : (![0, 0] : Fin S1x1.rank → Nat) = fun _ => 0 := by funext a; fin_cases a <;> rfl
  simp only [cc0__metric_loss_kernel_eq_skeleton]; unfold cc0__metric_loss_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    refine (read_writes_whole_last (S := S1x1) _ _ hz _ _ _).trans ?_
    simp only [View.readAt_eq_ld, harg1.read_unread, harg2.read_unread, harg3.read_unread,
      View.ld_unit_zero (S := S128x128) hz, View.ld_unit_zero (S := S8192x128) hz, View.ld_unit_zero (S := S1x8192) hz,
      View.readCov_unit_zero (S := S1x1) _ hz]
    rfl
  · iexists _; isplitr
    swap; · iexact H4
    ipureintro
    sl_unfold_words
    refine (read_writes_whole_last (S := S1x1) _ _ hz _ _ _).trans ?_
    simp only [View.readAt_eq_ld, harg1.read_unread, harg2.read_unread, harg3.read_unread,
      View.ld_unit_zero (S := S128x128) hz, View.ld_unit_zero (S := S8192x128) hz, View.ld_unit_zero (S := S1x8192) hz,
      View.readCov_unit_zero (S := S1x1) _ hz]
    rfl

set_option maxHeartbeats 1000000 in
/-- EVERY OTHER TILE. With the reset condition false: from the inputs' buffers at `x0 x1 x2` and the accumulators' at
    `prev3`, `prev4`, the body runs to the inputs' as they were and the accumulators at one step from `prev3`, `prev4`. -/
theorem runB (c : Dev nD) (i : grid0.Coords)
    (arg1 : Memref sig .tc .vmem S128x128 .f32) (harg1 : arg1.IsWhole)
    (arg2 : Memref sig .tc .vmem S8192x128 .f32) (harg2 : arg2.IsWhole)
    (arg3 : Memref sig .tc .vmem S1x8192 .f32) (harg3 : arg3.IsWhole)
    (arg4 : Memref sig .tc .vmem S1x1 .f32) (harg4 : arg4.IsWhole)
    (arg5 : Memref sig .tc .vmem S1x1 .f32) (harg5 : arg5.IsWhole) (hc0 : ¬cond0 i)
    (x0 : Vec F S128x128 .f32) (x1 : Vec F S8192x128 .f32) (x2 : Vec F S1x8192 .f32)
    (prev3 prev4 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare prev3 ∗ owns (c : Thread nD τ) arg5 fullShare prev4
        ∗ (iprop(owns (c : Thread nD τ) arg1 fullShare x0 ∗ owns (c : Thread nD τ) arg2 fullShare x1 ∗ owns (c : Thread nD τ) arg3 fullShare x2
            ∗ owns (c : Thread nD τ) arg4 fullShare (step3 i x0 x1 x2 prev3)
            ∗ owns (c : Thread nD τ) arg5 fullShare (step4 i x0 x1 x2 prev4)) -∗ K ⟨⟩))
      ⊢ wp frame (wpE (defs₀ (F := F)) Variants.none c none) E (cc0__metric_loss_kernel i arg1 harg1 arg2 harg2 arg3 harg3 arg4 harg4 arg5 harg5) K := by
  have hz : (![0, 0] : Fin S1x1.rank → Nat) = fun _ => 0 := by funext a; fin_cases a <;> rfl
  simp only [cc0__metric_loss_kernel_eq_skeleton]; unfold cc0__metric_loss_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    refine (read_writes_whole_last (S := S1x1) _ _ hz _ _ _).trans ?_
    simp only [View.readAt_eq_ld, harg1.read_unread, harg2.read_unread, harg3.read_unread, harg4.read_unread, harg5.read_unread,
      View.ld_unit_zero (S := S128x128) hz, View.ld_unit_zero (S := S8192x128) hz, View.ld_unit_zero (S := S1x8192) hz,
      View.ld_unit_zero (S := S1x1) hz]
    rfl
  · iexists _; isplitr
    swap; · iexact H4
    ipureintro
    sl_unfold_words
    refine (read_writes_whole_last (S := S1x1) _ _ hz _ _ _).trans ?_
    simp only [View.readAt_eq_ld, harg1.read_unread, harg2.read_unread, harg3.read_unread, harg4.read_unread, harg5.read_unread,
      View.ld_unit_zero (S := S128x128) hz, View.ld_unit_zero (S := S8192x128) hz, View.ld_unit_zero (S := S1x8192) hz,
      View.ld_unit_zero (S := S1x1) hz]
    rfl

/-! ## What the buffers hold when the body is called -/

/-- Each input's current buffer holds its block at every tile, fetched there or not: unfetched, the block index has
    not moved since the tile that fetched it. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- At a later tile an accumulator's current buffer holds what the body left at the tile before: the buffer is
    written back after the last tile only. -/
theorem before0_3_B (c : Dev nD) (t : Fin cfg0.N) (h0 : ¬t.val % 64 = 0) (d) :
    (dats m 0 c).before 3 t d = acc3 m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 64 = 0) (d) :
    (dats m 0 c).before 4 t d = acc4 m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The accumulators' recursion read at a tile -/

theorem acc3_A (c : Dev nD) (t : Fin cfg0.N) (h0 : t.val = 0) :
    acc3 m c t.val t.isLt = step3 (grid0.coords t) (iblk m c 0 t) (iblk m c 1 t) (iblk m c 2 t) (k0_pay3 (F := F)) := by
  obtain ⟨n, hn⟩ := t
  cases n with
  | zero => exact rfl
  | succ n => exact absurd h0 (Nat.succ_ne_zero n)
theorem acc4_A (c : Dev nD) (t : Fin cfg0.N) (h0 : t.val = 0) :
    acc4 m c t.val t.isLt = step4 (grid0.coords t) (iblk m c 0 t) (iblk m c 1 t) (iblk m c 2 t) (k0_pay4 (F := F)) := by
  obtain ⟨n, hn⟩ := t
  cases n with
  | zero => exact rfl
  | succ n => exact absurd h0 (Nat.succ_ne_zero n)
theorem acc3_B (c : Dev nD) (t : Fin cfg0.N) (h0 : t.val ≠ 0) :
    acc3 m c t.val t.isLt = step3 (grid0.coords t) (iblk m c 0 t) (iblk m c 1 t) (iblk m c 2 t)
      (acc3 m c (t.val - 1) (Nat.lt_of_le_of_lt (Nat.sub_le _ _) t.isLt)) := by
  obtain ⟨n, hn⟩ := t
  cases n with
  | zero => exact absurd rfl h0
  | succ n => exact rfl
theorem acc4_B (c : Dev nD) (t : Fin cfg0.N) (h0 : t.val ≠ 0) :
    acc4 m c t.val t.isLt = step4 (grid0.coords t) (iblk m c 0 t) (iblk m c 1 t) (iblk m c 2 t)
      (acc4 m c (t.val - 1) (Nat.lt_of_le_of_lt (Nat.sub_le _ _) t.isLt)) := by
  obtain ⟨n, hn⟩ := t
  cases n with
  | zero => exact absurd rfl h0
  | succ n => exact rfl

/-! ## The obligation at a tile -/

/-- What the body is called with at tile `t`, the five windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 800000 in
/-- The body at any tile: the inputs' buffers hold their blocks; the closed form of the reset condition says which
    case the tile is in; at a later tile the accumulators' buffers hold what the tile before left; so the case's run
    applies, and its result is the recursion's value at this tile. The invariant passes through unread and the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [acc3_A m c t (by omega), acc4_A m c t (by omega)]
    iintro ⟨HΦ, Ho, ⟨%d0, H0⟩, ⟨%d1, H1⟩, ⟨%d2, H2⟩, ⟨%d3, H3⟩, ⟨%d4, H4⟩⟩
    iapply (runA c (grid0.coords t) _ _ _ _ _ _ _ _ _ _ ((hcond0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc3_B m c t (by omega), acc4_B m c t (by omega)]
    simp only [before0_3_B m c t h0, before0_4_B m c t h0]
    iintro ⟨HΦ, Ho, ⟨%d0, H0⟩, ⟨%d1, H1⟩, ⟨%d2, H2⟩, ⟨%d3, H3⟩, ⟨%d4, H4⟩⟩
    iapply (runB c (grid0.coords t) _ _ _ _ _ _ _ _ _ _ (fun h => h0 ((hcond0 t).mp h)) (iblk m c 0 t) (iblk m c 1 t) (iblk m c 2 t)
      (acc3 m c (t.val - 1) (Nat.lt_of_le_of_lt (Nat.sub_le _ _) t.isLt)) (acc4 m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- At every tile: from the input buffers at their blocks and the accumulators at what the tile before left (anything at
    the first tile, where the body resets them), the body runs to the inputs unchanged and the accumulators at
    `acc3` / `acc4` of this tile. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KLaunch.lean ====
/-
  The whole run of @main from the body's obligation: the four operations before the launch, the launch over the
  64 tiles, the six operations after it.
-/
import proofs.«119142_j23682449670377_1_alg».proof.Proof.KData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result from accumulator 3's final contents: reshaped to a scalar and divided by 24576. -/
def res6 (a : Vec F S1x1 .f32) : Vec F S_ .f32 :=
  Host.divf (shapeCast S_ a shapeCasts_S1x1_S_) (constant S_ .f32 0x46C00000#32)
/-- The second result from accumulator 4's final contents: reshaped to a scalar and divided by 33538048. -/
def res7 (a : Vec F S1x1 .f32) : Vec F S_ .f32 :=
  Host.divf (shapeCast S_ a shapeCasts_S1x1_S_) (constant S_ .f32 0x4BFFE000#32)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the four operations, the launch, then the six operations: it reduces to the launch continued by the six,
    at the contents after the four. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- No operation before the launch writes the argument. -/
theorem V_main_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  after_results

/-- The windows' arrays one by one: the argument at its two halves (windows 0 and 1), the row of squared norms and the
    two accumulators whole. -/
theorem arrays_chain (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg0) ↦{fullShare.left} Fw 0) ∗ (((c.tc : Thread nD τ).loc main_arg0) ↦{fullShare.right} Fw 1)
          ∗ (((c.tc : Thread nD τ).loc main_v2) ↦{fullShare} Fw 2) ∗ (((c.tc : Thread nD τ).loc main_v3_0) ↦{fullShare} Fw 3)
          ∗ (((c.tc : Thread nD τ).loc main_v3_1) ↦{fullShare} Fw 4)) := by
  unfold Dat.arrays
  rw [bigSep_W0]
  rw [(arr_whole0 0).set_eq_univ, (arr_whole0 2).set_eq_univ, (arr_whole0 3).set_eq_univ, (arr_whole0 4).set_eq_univ]
  rfl

/-- The four buffers behind the five windows, whole, make the windows' arrays at entry: the argument's full share is
    its left half (window 0) and its right half (window 1). -/
theorem hsplit (c : Dev nD) : (Pipeline.arrBufs spec0 c (V m c) : sProp 𝕄) ⊢ (dats m 0 c).arrays ((dats m 0 c).arrAt · 0) := by
  rw [arrays_chain]
  unfold Pipeline.arrBufs
  rw [BI.bigSep_eq_bigSepL_of_eq [main_arg0, main_v2, main_v3_0, main_v3_1] (by decide) (by decide)]
  show iprop((((c.tc : Thread nD τ).loc main_arg0) ↦{fullShare} V m c main_arg0) ∗ (((c.tc : Thread nD τ).loc main_v2) ↦{fullShare} V m c main_v2)
        ∗ (((c.tc : Thread nD τ).loc main_v3_0) ↦{fullShare} V m c main_v3_0) ∗ (((c.tc : Thread nD τ).loc main_v3_1) ↦{fullShare} V m c main_v3_1))
      ⊢ iprop((((c.tc : Thread nD τ).loc main_arg0) ↦{fullShare.left} V m c main_arg0) ∗ (((c.tc : Thread nD τ).loc main_arg0) ↦{fullShare.right} V m c main_arg0)
        ∗ (((c.tc : Thread nD τ).loc main_v2) ↦{fullShare} V m c main_v2) ∗ (((c.tc : Thread nD τ).loc main_v3_0) ↦{fullShare} V m c main_v3_0)
        ∗ (((c.tc : Thread nD τ).loc main_v3_1) ↦{fullShare} V m c main_v3_1))
  iintro ⟨H0, H2, H3, H4⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  iexact H4

/-! ## The six operations after the launch -/

/-- The buffers the six operations run within: the two accumulators' arrays and the nine buffers no window stages. -/
abbrev tailL : List (Ref sig .tc) := [main_v3_0, main_v3_1, main_v0, main_cst, main_v1, main_v4, main_v5, main_cst_0, main_v6, main_cst_1, main_v7]
/-- The same as device buffers. -/
abbrev tailS : Finset (DevRef τ sig) := tailL.toFinset.map ⟨Proc.devRef (sig := sig) .tc, Proc.devRef_injective _⟩

theorem mem_tailS {r : Ref sig .tc} (h : r ∈ tailL) : Proc.devRef (τ := τ) .tc r ∈ (tailS : Finset (DevRef τ sig)) :=
  Finset.mem_map_of_mem _ (List.mem_toFinset.mpr h)

/-- Those buffers held whole at a valuation, one by one. -/
theorem held_tailS (c : Dev nD) (W : Valuation τ sig (Elt F)) :
    (StableHlo.held (c.tc : Thread nD τ) tailS W : sProp 𝕄)
      = iprop((((c.tc : Thread nD τ).loc main_v3_0) ↦{fullShare} W (Proc.devRef .tc main_v3_0))
          ∗ (((c.tc : Thread nD τ).loc main_v3_1) ↦{fullShare} W (Proc.devRef .tc main_v3_1))
          ∗ (((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_v4) ↦{fullShare} W (Proc.devRef .tc main_v4))
          ∗ (((c.tc : Thread nD τ).loc main_v5) ↦{fullShare} W (Proc.devRef .tc main_v5))
          ∗ (((c.tc : Thread nD τ).loc main_cst_0) ↦{fullShare} W (Proc.devRef .tc main_cst_0))
          ∗ (((c.tc : Thread nD τ).loc main_v6) ↦{fullShare} W (Proc.devRef .tc main_v6))
          ∗ (((c.tc : Thread nD τ).loc main_cst_1) ↦{fullShare} W (Proc.devRef .tc main_cst_1))
          ∗ (((c.tc : Thread nD τ).loc main_v7) ↦{fullShare} W (Proc.devRef .tc main_v7))) := by
  unfold StableHlo.held tailS
  rw [bigSep_map, BI.bigSep_eq_bigSepL tailL (by decide)]
  rfl

/-- Each of the six operations touches those buffers only. -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl
  · rw [StableHlo.reshape_bufs]; intro b hb
    simp only [Finset.mem_insert, Finset.mem_singleton] at hb
    rcases hb with rfl | rfl <;> exact mem_tailS (by decide)
  · rw [StableHlo.reshape_bufs]; intro b hb
    simp only [Finset.mem_insert, Finset.mem_singleton] at hb
    rcases hb with rfl | rfl <;> exact mem_tailS (by decide)
  · rw [StableHlo.nullary_bufs]; intro b hb
    simp only [Finset.mem_singleton] at hb
    subst hb; exact mem_tailS (by decide)
  · rw [StableHlo.binary_bufs]; intro b hb
    simp only [Finset.mem_insert, Finset.mem_singleton] at hb
    rcases hb with rfl | rfl | rfl <;> exact mem_tailS (by decide)
  · rw [StableHlo.nullary_bufs]; intro b hb
    simp only [Finset.mem_singleton] at hb
    subst hb; exact mem_tailS (by decide)
  · rw [StableHlo.binary_bufs]; intro b hb
    simp only [Finset.mem_insert, Finset.mem_singleton] at hb
    rcases hb with rfl | rfl | rfl <;> exact mem_tailS (by decide)

/-- And allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What the six operations leave, from any contents `W`: the accumulators' arrays untouched, the two results the
    reshaped accumulators divided by the two constants. -/
theorem after_tail (W : Valuation τ sig (Elt F)) :
    StableHlo.after (List.flatten [hostOps1]) W (Proc.devRef .tc main_v3_0) = W (Proc.devRef .tc main_v3_0)
    ∧ StableHlo.after (List.flatten [hostOps1]) W (Proc.devRef .tc main_v3_1) = W (Proc.devRef .tc main_v3_1)
    ∧ StableHlo.after (List.flatten [hostOps1]) W (Proc.devRef .tc main_v6) = res6 (W (Proc.devRef .tc main_v3_0))
    ∧ StableHlo.after (List.flatten [hostOps1]) W (Proc.devRef .tc main_v7) = res7 (W (Proc.devRef .tc main_v3_1)) := by
  simp only [List.flatten_cons, List.flatten_nil, List.append_nil]
  refine ⟨?_, ?_, ?_, ?_⟩
  · after_results
  · after_results
  · after_results <;> rfl
  · after_results <;> rfl

/-- The contents the six operations start from on core `c`: the two accumulators' arrays at what the launch wrote back,
    every other buffer as the launch found it. -/
def Wt (c : Dev nD) : Valuation τ sig (Elt F) :=
  Function.update (Function.update (V0 m c) (Proc.devRef .tc main_v3_0) ((dats m 0 c).arrAt 3 cfg0.N))
    (Proc.devRef .tc main_v3_1) ((dats m 0 c).arrAt 4 cfg0.N)

theorem Wt_30 (c : Dev nD) : Wt m c (Proc.devRef .tc main_v3_0) = (dats m 0 c).arrAt 3 cfg0.N := by
  unfold Wt
  rw [Function.update_of_ne (StableHlo.devRef_ne_of_ne (by decide)), Function.update_self]
theorem Wt_31 (c : Dev nD) : Wt m c (Proc.devRef .tc main_v3_1) = (dats m 0 c).arrAt 4 cfg0.N := by
  unfold Wt
  rw [Function.update_self]
theorem Wt_ne (c : Dev nD) (r : Ref sig .tc) (h0 : r ≠ main_v3_0) (h1 : r ≠ main_v3_1) : Wt m c (Proc.devRef .tc r) = V m c r := by
  unfold Wt
  rw [Function.update_of_ne (StableHlo.devRef_ne_of_ne h1), Function.update_of_ne (StableHlo.devRef_ne_of_ne h0)]

/-- Those buffers at the start of the six operations, one by one. -/
theorem held_Wt (c : Dev nD) :
    (StableHlo.held (c.tc : Thread nD τ) tailS (Wt m c) : sProp 𝕄)
      = iprop((((c.tc : Thread nD τ).loc main_v3_0) ↦{fullShare} (dats m 0 c).arrAt 3 cfg0.N) ∗ (((c.tc : Thread nD τ).loc main_v3_1) ↦{fullShare} (dats m 0 c).arrAt 4 cfg0.N)
          ∗ (((c.tc : Thread nD τ).loc main_v0) ↦{fullShare} V m c main_v0)
          ∗ (((c.tc : Thread nD τ).loc main_cst) ↦{fullShare} V m c main_cst)
          ∗ (((c.tc : Thread nD τ).loc main_v1) ↦{fullShare} V m c main_v1)
          ∗ (((c.tc : Thread nD τ).loc main_v4) ↦{fullShare} V m c main_v4)
          ∗ (((c.tc : Thread nD τ).loc main_v5) ↦{fullShare} V m c main_v5)
          ∗ (((c.tc : Thread nD τ).loc main_cst_0) ↦{fullShare} V m c main_cst_0)
          ∗ (((c.tc : Thread nD τ).loc main_v6) ↦{fullShare} V m c main_v6)
          ∗ (((c.tc : Thread nD τ).loc main_cst_1) ↦{fullShare} V m c main_cst_1)
          ∗ (((c.tc : Thread nD τ).loc main_v7) ↦{fullShare} V m c main_v7)) := by
  rw [held_tailS, Wt_30, Wt_31, Wt_ne m c main_v0 (by decide) (by decide), Wt_ne m c main_cst (by decide) (by decide), Wt_ne m c main_v1 (by decide) (by decide), Wt_ne m c main_v4 (by decide) (by decide), Wt_ne m c main_v5 (by decide) (by decide), Wt_ne m c main_cst_0 (by decide) (by decide), Wt_ne m c main_v6 (by decide) (by decide), Wt_ne m c main_cst_1 (by decide) (by decide), Wt_ne m c main_v7 (by decide) (by decide)]

/-- And at their end: the accumulators' arrays as they were, the two results computed; the rest is dropped. -/
theorem held_after (c : Dev nD) :
    (StableHlo.held (c.tc : Thread nD τ) tailS (StableHlo.after (List.flatten [hostOps1]) (Wt m c)) : sProp 𝕄)
      ⊢ iprop((((c.tc : Thread nD τ).loc main_v3_0) ↦{fullShare} (dats m 0 c).arrAt 3 cfg0.N) ∗ (((c.tc : Thread nD τ).loc main_v3_1) ↦{fullShare} (dats m 0 c).arrAt 4 cfg0.N)
          ∗ (((c.tc : Thread nD τ).loc main_v6) ↦{fullShare} res6 ((dats m 0 c).arrAt 3 cfg0.N)) ∗ (((c.tc : Thread nD τ).loc main_v7) ↦{fullShare} res7 ((dats m 0 c).arrAt 4 cfg0.N))) := by
  rw [held_tailS, (after_tail _).1, (after_tail _).2.1, (after_tail _).2.2.1, (after_tail _).2.2.2, Wt_30, Wt_31]
  iintro ⟨G30, G31, -, -, -, -, -, -, G6, -, G7⟩
  isplitl [G30]; · iexact G30
  isplitl [G31]; · iexact G31
  isplitl [G6]; · iexact G6
  iexact G7

set_option backward.isDefEq.respectTransparency.types false in
/-- The six operations after the launch, from its exit: they read the two accumulators' arrays and write the two results. -/
theorem htail (c : Dev nD) (Q' : PUnit → sProp 𝕄) :
    iprop((iprop((dats m 0 c).arrays ((dats m 0 c).arrAt · cfg0.N)
            ∗ (((c.tc : Thread nD τ).loc main_v6) ↦{fullShare} res6 ((dats m 0 c).arrAt 3 cfg0.N))
            ∗ (((c.tc : Thread nD τ).loc main_v7) ↦{fullShare} res7 ((dats m 0 c).arrAt 4 cfg0.N))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ (Pipeline.chain [StableHlo.seq hostOps1]) Q' := by
  rw [arrays_chain, unscopedRest0_eq]
  iintro ⟨Hk, Hb, ⟨H0, H1, H2, H3, H4⟩, R0, R1, R2, R3, R4, R5, R6, R7, R8⟩
  ihave Hh := (Entails.of_eq (held_Wt m c).symm) $$ [H3 H4 R0 R1 R2 R3 R4 R5 R6 R7 R8]
  · isplitl [H3]; · iexact H3
    isplitl [H4]; · iexact H4
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iapply (Pipeline.wp_seqs_then (pcfgs (F := F)) defs₀ Variants.none c tailS [] [hostOps1] tail_sub tail_fresh (Wt m c)) $$ [Hb Hh]
  · isplitl [Hb]; · iexact Hb
    iexact Hh
  iintro ⟨Hb, Hh⟩
  rw [Pipeline.chain_nil, wp_pure]
  imodintro
  iapply Hk
  ihave Hh' := (held_after m c) $$ Hh
  icases Hh' with ⟨G30, G31, G6, G7⟩
  isplitl [H0 H1 H2 G30 G31]
  · isplitl [H0]; · iexact H0
    isplitl [H1]; · iexact H1
    isplitl [H2]; · iexact H2
    isplitl [G30]; · iexact G30
    iexact G31
  isplitl [G6]; · iexact G6
  iexact G7

/-- Every weakly fair execution of @main terminates without a fault; the two results hold `res6` / `res7` of what the
    pipeline wrote back for windows 3 and 4, and the argument is unchanged. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v6) = res6 ((dats m 0 c).arrAt 3 cfg0.N)
      ∧ r.2.mem ((c.tc : Thread nD τ).loc main_v7) = res7 ((dats m 0 c).arrAt 4 cfg0.N)
      ∧ r.2.mem ((c.tc : Thread nD τ).loc main_arg0) = m ((c.tc : Thread nD τ).loc main_arg0)) := by
  classical
  exact Pipeline.θ_run_region_pf_tail (fun p => (cfgs p).toPCfg) (fun p => (cfgs p).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => iprop((((c.tc : Thread nD τ).loc main_v6) ↦{fullShare} res6 ((dats m 0 c).arrAt 3 cfg0.N))
            ∗ (((c.tc : Thread nD τ).loc main_v7) ↦{fullShare} res7 ((dats m 0 c).arrAt 4 cfg0.N))))
    (hX := fun c => by
      rw [Pipeline.unscopedRestP_none]
      iintro ⟨HU, -, -, -, Hp, -⟩; imodintro
      isplitl [Hp]; · iexists _; iexact Hp
      iexact HU)
    (hin := fun c => by
      show _ ⊢ (Pipeline.ΦA spec0 c : sProp 𝕄)
      unfold Pipeline.ΦA
      iintro ⟨Hp, -, Hr⟩
      isplitl [Hr] <;> iassumption)
    (hout := fun c => by
      show (Pipeline.ΦA spec0 c : sProp 𝕄) ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_v6) = res6 ((dats m 0 c).arrAt 3 cfg0.N)
      ∧ s.mem ((c.tc : Thread nD τ).loc main_v7) = res7 ((dats m 0 c).arrAt 4 cfg0.N))
    (hY := fun c s' => by
      iintro ⟨-, ⟨H6, H7⟩, HSI⟩
      icombine HSI H6 gives %h6
      icombine HSI H7 gives %h7
      imodintro
      isplitr
      · ipureintro; exact ⟨Buf.eq_of_forall_mem_univ h6, Buf.eq_of_forall_mem_univ h7⟩
      · iexact HSI)
    (hQ := fun s h c => ⟨(h c).2.2.1, (h c).2.2.2,
      ((h c).1 0).trans (((dats m 0 c).arrAt_in 0 rfl _).trans ((A_eq m c 0).trans (V_main_arg0 m c)))⟩)

end Cert.KernelIdeal.Hand

end
-- ==== Proof.Spec.lean ====
/-
  The two losses as functions of the input, on the extended reals.

  For `x : [8192, 128]` write `sq r = ∑ k, x r k · x r k` (a row's squared norm), `gram r c = ∑ k, x r k · x c k`,
  and `d² r c = (sq r + sq c) - 2 · gram r c` (the squared distance of rows `r` and `c`, as both programs
  compute it). Rows come in groups of four, row `r` in group `r / 4`.
  * `homoSum` adds `d² r c` over the ordered pairs in one group with `r ≠ c`;
  * `heterSum` adds `max (1 - d² r c, 0)` over the pairs whose row group comes strictly before the column group.
  The losses divide these by the numbers of such pairs, 24576 and 33538048.
  The float literals stay as the words both programs print, except the second count, which the reference
  computes by counting and the kernel states as a literal: both are the real number 33538048.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The input's shape. -/
abbrev SX : Shape := ⟨2, ![8192, 128]⟩

/-- The entry of `x` at row `r`, column `k`. -/
def xAt (x : SX.Idx → EReal) (r : Fin 8192) (k : Fin 128) : EReal := x (ix2 r k)

/-- A row's squared norm. -/
def sq (x : SX.Idx → EReal) (r : Fin 8192) : EReal := ∑ k : Fin 128, xAt x r k * xAt x r k

/-- The inner product of two rows. -/
def gram (x : SX.Idx → EReal) (r c : Fin 8192) : EReal := ∑ k : Fin 128, xAt x r k * xAt x c k

/-- The float literal 2.0 (both programs print this word). -/
def two : EReal := Ideal.ofBits .f32 0x40000000#32
/-- The float literal 1.0. -/
def one : EReal := Ideal.ofBits .f32 0x3F800000#32
/-- The float literal 24576.0, the number of ordered same-group pairs. -/
def cntHomo : EReal := Ideal.ofBits .f32 0x46C00000#32

/-- The squared distance of rows `r` and `c` in the form both programs compute. -/
def d2 (x : SX.Idx → EReal) (r c : Fin 8192) : EReal := (sq x r + sq x c) - two * gram x r c

/-- Rows `r` and `c` are distinct members of one group of four. -/
def homoP (r c : ℕ) : Prop := r / 4 = c / 4 ∧ r ≠ c
instance (r c : ℕ) : Decidable (homoP r c) := by unfold homoP; infer_instance

/-- Row `r`'s group comes strictly before row `c`'s. -/
def heterP (r c : ℕ) : Prop := r / 4 < c / 4
instance (r c : ℕ) : Decidable (heterP r c) := by unfold heterP; infer_instance

/-- One pair's term of the same-group sum. -/
def homoTerm (x : SX.Idx → EReal) (r c : Fin 8192) : EReal := if homoP r.val c.val then d2 x r c else 0
/-- One pair's term of the cross-group hinge sum. -/
def heterTerm (x : SX.Idx → EReal) (r c : Fin 8192) : EReal := if heterP r.val c.val then max (one - d2 x r c) 0 else 0

def homoSum (x : SX.Idx → EReal) : EReal := ∑ r : Fin 8192, ∑ c : Fin 8192, homoTerm x r c
def heterSum (x : SX.Idx → EReal) : EReal := ∑ r : Fin 8192, ∑ c : Fin 8192, heterTerm x r c

/-- The same-group loss. -/
def lossHomo (x : SX.Idx → EReal) : EReal := Ideal.div (homoSum x) cntHomo
/-- The cross-group loss: the hinge sum over the number of cross-group pairs. -/
def lossHeter (x : SX.Idx → EReal) : EReal := Ideal.div (heterSum x) ((33538048 : ℝ) : EReal)

end Cert.Spec

end
-- ==== Proof.IntMath.lean ====
/-
  Integer facts both programs lean on, free of any program.

  Row and column numbers are below 8192, so as 32-bit words they are non-negative and floor division by four
  (spelt as a truncating division corrected by signs and remainder) is the plain quotient; words below
  2^31 compare as their numbers do. The cross-group pairs are counted: for each of the 2048·2047/2 ordered
  pairs of groups, 4·4 pairs of rows, 33538048 in all, which is also the float literal 0x4BFFE000.
-/
import proofs.«119142_j23682449670377_1_alg».proof.Proof.Spec
import Idealize.ShloMosaic.PureOps
import Idealize.ShloMosaic.Lib.StableHlo.Predicate
import Mathlib.Algebra.BigOperators.Intervals
import Mathlib.Algebra.BigOperators.Fin
import Mathlib.Order.Interval.Finset.Nat
import Mathlib.Data.Real.Basic

noncomputable section

namespace Cert.IntMath

open Idealize.ShloMosaic Cert.Spec

/-- Floor division by four on one word, as the KERNEL spells it (vector unit): truncating quotient, minus one
    when the signs of dividend and divisor differ and the remainder is not zero. -/
def kfloor4 (x : BitVec 32) : BitVec 32 :=
  let q := IntOp.divsi .vector x 4#32
  let sx : BitVec 32 := (IntOp.cmpi .sgt x 0#32).setWidth 32 - (IntOp.cmpi .slt x 0#32).setWidth 32
  let sy : BitVec 32 := Scalar.subi (Scalar.extui (Scalar.cmpi .sgt 4#32 0#32)) (Scalar.extui (Scalar.cmpi .slt 4#32 0#32))
  let ne := IntOp.cmpi .ne sx sy
  let r := IntOp.remsi .vector x 4#32
  let nz := IntOp.cmpi .ne r 0#32
  Scalar.select (ne &&& nz) (q - 1#32) q

/-- The same as the REFERENCE spells it (host): with `sign` of both operands. -/
def hfloor4 (x : BitVec 32) : BitVec 32 :=
  let q := IntOp.divsi .host x 4#32
  let sx : BitVec 32 := if x = 0 then 0 else if x.msb then -1 else 1
  let sy : BitVec 32 := if (4#32 : BitVec 32) = 0 then 0 else if (4#32 : BitVec 32).msb then -1 else 1
  let ne := IntOp.cmpi .ne sx sy
  let r := IntOp.remsi .host x 4#32
  let nz := IntOp.cmpi .ne r 0#32
  Scalar.select (ne &&& nz) (q - 1#32) q

/-- A row number read back from its word. -/
theorem toNat_small (n : ℕ) (hn : n < 8192) : (BitVec.ofNat 32 n).toNat = n := by
  rw [BitVec.toNat_ofNat]; exact Nat.mod_eq_of_lt (by omega)

/-- A row number's word is non-negative. -/
theorem msb_small (n : ℕ) (hn : n < 8192) : (BitVec.ofNat 32 n).msb = false :=
  BitVec.msb_eq_false_iff_two_mul_lt.mpr (by rw [toNat_small n hn]; omega)

/-- Division by four meets no corner: four is neither zero nor minus one. -/
theorem not_corner4 (x : BitVec 32) : ¬ IntOp.SDivCorner x 4#32 := by
  intro hc; rcases hc with hc | ⟨_, hc⟩ <;> exact absurd hc (by decide)

/-- Signed division by four of a row number, on any unit: the plain quotient. -/
theorem divsi4_ofNat (u : ArithUnit) (n : ℕ) (hn : n < 8192) :
    IntOp.divsi u (BitVec.ofNat 32 n) 4#32 = BitVec.ofNat 32 (n / 4) := by
  apply BitVec.eq_of_toNat_eq
  have h4 : n / 4 < 8192 := by omega
  simp only [IntOp.divsi, if_neg (not_corner4 _), BitVec.sdiv_eq, msb_small n hn,
    show (4#32 : BitVec 32).msb = false from by decide, BitVec.udiv_eq, BitVec.toNat_udiv, toNat_small n hn,
    toNat_small _ h4]
  rfl

/-- The signed remainder by four of a row number, on any unit: the plain remainder. -/
theorem remsi4_ofNat (u : ArithUnit) (n : ℕ) (hn : n < 8192) :
    IntOp.remsi u (BitVec.ofNat 32 n) 4#32 = BitVec.ofNat 32 (n % 4) := by
  apply BitVec.eq_of_toNat_eq
  have h4 : n % 4 < 8192 := by omega
  simp only [IntOp.remsi, if_neg (not_corner4 _), BitVec.srem_eq, msb_small n hn,
    show (4#32 : BitVec 32).msb = false from by decide, BitVec.umod_eq, BitVec.toNat_umod, toNat_small n hn,
    toNat_small _ h4]
  rfl

/-- A row number's word is zero only for row zero. -/
theorem ofNat_eq_zero_iff (n : ℕ) (hn : n < 8192) : BitVec.ofNat 32 n = 0#32 ↔ n = 0 := by
  constructor
  · intro h; have := congrArg BitVec.toNat h; rw [toNat_small n hn] at this; simpa using this
  · rintro rfl; rfl

/-- Selecting on a zero bit keeps the second value. -/
theorem select_zero {α : Type} (a b : α) : Scalar.select 0#1 a b = b := by
  simp [Scalar.select]

/-- On a row number both are the plain quotient. -/
theorem kfloor4_ofNat (n : ℕ) (hn : n < 8192) : kfloor4 (BitVec.ofNat 32 n) = BitVec.ofNat 32 (n / 4) := by
  unfold kfloor4
  simp only [divsi4_ofNat _ n hn, remsi4_ofNat _ n hn]
  rcases Nat.eq_zero_or_pos n with rfl | hpos
  · decide
  · have hgt : IntOp.cmpi .sgt (BitVec.ofNat 32 n) 0#32 = 1#1 :=
      (StableHlo.Predicate.sgt_iff_toNat (by rw [toNat_small n hn]; omega) (by decide)).mpr (by rw [toNat_small n hn]; exact hpos)
    have hlt : IntOp.cmpi .slt (BitVec.ofNat 32 n) 0#32 = 0#1 := by
      have h := (StableHlo.Predicate.slt_iff_toNat (a := BitVec.ofNat 32 n) (b := 0#32) (by rw [toNat_small n hn]; omega) (by decide)).not
      have h' : ¬ IntOp.cmpi .slt (BitVec.ofNat 32 n) 0#32 = 1#1 := h.mpr (by simp)
      generalize IntOp.cmpi .slt (BitVec.ofNat 32 n) 0#32 = b at h' ⊢
      revert h'; revert b; decide
    rw [hgt, hlt]
    have hne : IntOp.cmpi .ne ((1#1 : BitVec 1).setWidth 32 - (0#1 : BitVec 1).setWidth 32)
        (Scalar.subi (Scalar.extui (Scalar.cmpi .sgt 4#32 0#32)) (Scalar.extui (Scalar.cmpi .slt 4#32 0#32))) = 0#1 := by decide
    rw [hne, BitVec.zero_and, select_zero]

theorem hfloor4_ofNat (n : ℕ) (hn : n < 8192) : hfloor4 (BitVec.ofNat 32 n) = BitVec.ofNat 32 (n / 4) := by
  unfold hfloor4
  simp only [divsi4_ofNat _ n hn, remsi4_ofNat _ n hn, msb_small n hn]
  rcases Nat.eq_zero_or_pos n with rfl | hpos
  · decide
  · have hz : ¬ BitVec.ofNat 32 n = 0 := fun h => by
      have := (ofNat_eq_zero_iff n hn).mp h; omega
    simp only [if_neg hz]
    have hne : IntOp.cmpi .ne (if false = true then (-1 : BitVec 32) else 1)
        (if (4#32 : BitVec 32) = 0 then 0 else if (4#32 : BitVec 32).msb then -1 else 1) = 0#1 := by decide
    rw [hne, BitVec.zero_and, select_zero]

/-- Small words compare as their numbers. -/
theorem cmpi_eq_ofNat (a b : ℕ) (ha : a < 8192) (hb : b < 8192) :
    IntOp.cmpi .eq (BitVec.ofNat 32 a) (BitVec.ofNat 32 b) = if a = b then 1#1 else 0#1 := by
  by_cases h : a = b
  · subst h; simp [IntOp.cmpi]
  · have hw : BitVec.ofNat 32 a ≠ BitVec.ofNat 32 b := fun e => h (by
      have := congrArg BitVec.toNat e; rwa [toNat_small a ha, toNat_small b hb] at this)
    have hf : (BitVec.ofNat 32 a == BitVec.ofNat 32 b) = false := beq_eq_false_iff_ne.mpr hw
    simp only [IntOp.cmpi, hf, if_neg h]; rfl
theorem cmpi_slt_ofNat (a b : ℕ) (ha : a < 8192) (hb : b < 8192) :
    IntOp.cmpi .slt (BitVec.ofNat 32 a) (BitVec.ofNat 32 b) = if a < b then 1#1 else 0#1 := by
  have ia := StableHlo.Predicate.toInt_ofNat_small a (by omega)
  have ib := StableHlo.Predicate.toInt_ofNat_small b (by omega)
  simp only [IntOp.cmpi, BitVec.slt, ia, ib]
  by_cases h : a < b
  · simp [h]
  · simp [h]

/-- The tile's row number as the kernel forms it: tile number times 128 plus the row within the tile. -/
theorem row_word (t p : ℕ) (ht : t < 64) (hp : p < 128) :
    Scalar.muli (BitVec.ofNat 32 t) 128#32 + BitVec.ofNat 32 p = BitVec.ofNat 32 (128 * t + p) := by
  apply BitVec.eq_of_toNat_eq
  simp only [Scalar.muli, IntOp.muli, BitVec.toNat_add, BitVec.toNat_mul, BitVec.toNat_ofNat]
  omega

/-- Floor division by four at the tile's row number as the kernel forms it. -/
theorem kfloor4_row (t p : ℕ) (ht : t < 64) (hp : p < 128) :
    kfloor4 (Scalar.muli (BitVec.ofNat 32 t) 128#32 + BitVec.ofNat 32 p) = BitVec.ofNat 32 ((128 * t + p) / 4) := by
  rw [row_word t p ht hp]; exact kfloor4_ofNat _ (by omega)

/-- A double sum over `Fin M` of a function of the two numbers is the double sum over the numbers below `M`. -/
theorem sum_fin_eq_range (M : ℕ) (f : ℕ → ℕ → ℕ) :
    (∑ r : Fin M, ∑ c : Fin M, f r.val c.val) = ∑ r ∈ Finset.range M, ∑ c ∈ Finset.range M, f r c := by
  rw [← Fin.sum_univ_eq_sum_range (fun r => ∑ c ∈ Finset.range M, f r c) M]
  refine Finset.sum_congr rfl fun r _ => ?_
  rw [← Fin.sum_univ_eq_sum_range (fun c => f r.val c) M]

/-- With the rows in whole groups of four, each row has exactly four columns in its own group. -/
theorem count_same_row (M N : ℕ) (hM : M = 4 * N) (r : ℕ) (hr : r < M) :
    (∑ c ∈ Finset.range M, if r / 4 = c / 4 then 1 else 0 : ℕ) = 4 := by
  rw [Finset.sum_boole]
  have : (Finset.range M).filter (fun c => r / 4 = c / 4) = Finset.Ico (4 * (r / 4)) (4 * (r / 4) + 4) := by
    ext c; simp only [Finset.mem_filter, Finset.mem_range, Finset.mem_Ico]; omega
  rw [this, Nat.card_Ico]
  simp only [Nat.cast_id]; omega

/-- Of the `M²` ordered pairs of rows (`M` a multiple of four), `4·M` lie in one group, and the rest split evenly between
    "row group first" and "column group first" (swap the pair). -/
theorem count_pairs (M N : ℕ) (hM : M = 4 * N) :
    2 * (∑ r ∈ Finset.range M, ∑ c ∈ Finset.range M, if r / 4 < c / 4 then 1 else 0 : ℕ) + 4 * M = M * M := by
  have hswap : (∑ r ∈ Finset.range M, ∑ c ∈ Finset.range M, if c / 4 < r / 4 then 1 else 0 : ℕ)
      = ∑ r ∈ Finset.range M, ∑ c ∈ Finset.range M, if r / 4 < c / 4 then 1 else 0 := Finset.sum_comm
  have hE : (∑ r ∈ Finset.range M, ∑ c ∈ Finset.range M, if r / 4 = c / 4 then 1 else 0 : ℕ) = M * 4 := by
    rw [Finset.sum_congr rfl fun r hr => count_same_row M N hM r (Finset.mem_range.mp hr), Finset.sum_const, Finset.card_range,
      smul_eq_mul]
  have hrow : ∀ r ∈ Finset.range M,
      ((∑ c ∈ Finset.range M, if r / 4 < c / 4 then 1 else 0 : ℕ) + (∑ c ∈ Finset.range M, if c / 4 < r / 4 then 1 else 0 : ℕ))
        + (∑ c ∈ Finset.range M, if r / 4 = c / 4 then 1 else 0 : ℕ) = M := by
    intro r _
    rw [← Finset.sum_add_distrib, ← Finset.sum_add_distrib]
    have hone : ∀ c ∈ Finset.range M,
        ((if r / 4 < c / 4 then 1 else 0 : ℕ) + (if c / 4 < r / 4 then 1 else 0 : ℕ)) + (if r / 4 = c / 4 then 1 else 0 : ℕ) = 1 := by
      intro c _; split_ifs <;> omega
    rw [Finset.sum_congr rfl hone, Finset.sum_const, Finset.card_range, smul_eq_mul, Nat.mul_one]
  have hall : ((∑ r ∈ Finset.range M, ∑ c ∈ Finset.range M, if r / 4 < c / 4 then 1 else 0 : ℕ)
      + (∑ r ∈ Finset.range M, ∑ c ∈ Finset.range M, if c / 4 < r / 4 then 1 else 0 : ℕ))
      + (∑ r ∈ Finset.range M, ∑ c ∈ Finset.range M, if r / 4 = c / 4 then 1 else 0 : ℕ) = M * M := by
    rw [← Finset.sum_add_distrib, ← Finset.sum_add_distrib, Finset.sum_congr rfl hrow, Finset.sum_const, Finset.card_range,
      smul_eq_mul]
  rw [hswap, hE] at hall
  omega

/-- The number of cross-group pairs among 8192 rows: (8192² - 4·8192) / 2. -/
theorem count_heter : (∑ r : Fin 8192, ∑ c : Fin 8192, if heterP r.val c.val then 1 else 0 : ℕ) = 33538048 := by
  have e0 : (∑ r : Fin 8192, ∑ c : Fin 8192, if heterP r.val c.val then 1 else 0 : ℕ)
      = ∑ r ∈ Finset.range 8192, ∑ c ∈ Finset.range 8192, if r / 4 < c / 4 then 1 else 0 := by
    rw [← sum_fin_eq_range 8192 (fun a b => if a / 4 < b / 4 then 1 else 0)]
    refine Finset.sum_congr rfl fun r _ => Finset.sum_congr rfl fun c _ => ?_
    simp only [heterP]
  have h := count_pairs 8192 2048 (by norm_num)
  rw [e0]
  generalize (∑ r ∈ Finset.range 8192, ∑ c ∈ Finset.range 8192, if r / 4 < c / 4 then 1 else 0 : ℕ) = X at h ⊢
  omega

/-- The kernel's literal is that number. -/
theorem ofBits_cntHeter : Ideal.ofBits .f32 0x4BFFE000#32 = ((33538048 : ℝ) : EReal) := by
  simp [Ideal.ofBits, Ideal.ieee, -EReal.coe_mul]; norm_num

end Cert.IntMath

end
-- ==== Proof.KTile.lean ====
/-
  One tile's contribution, read at the extended reals: the tile's squared distances entry by entry, the two
  masks as conditions on the row and column numbers, and the tile's two masked sums.
-/
import proofs.«119142_j23682449670377_1_alg».proof.Proof.KData
import proofs.«119142_j23682449670377_1_alg».proof.Proof.Spec
import proofs.«119142_j23682449670377_1_alg».proof.Proof.IntMath
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen Cert.Spec

/-! ## Column forms of a shape cast and a broadcast -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum of squares, and the product with the transposed right operand -/

/-- The index a lane sum of a `[128, 128]` array inserts at row `p` is `(p, k)`. -/
theorem lift_row (h : S128x128.Reduces [1] S128) (p k : Fin 128) : h.lift (ix1 p) k = ix2 p k := by
  funext c
  match c with
  | ⟨0, _⟩ => rfl
  | ⟨1, _⟩ => rfl

/-- The lane sum of a `[128, 128]` array at row `p`. -/
theorem rowSum_apply (v : FVec Ideal S128x128 .f32) (h : S128x128.Reduces [1] S128) (hφ : FKind.Formats .f32)
    (hacc : (0x00000000#32 : BitVec 32) = FKind.add.neutral .f32 hφ) (p : Fin 128) :
    multiReduction (F := Ideal) .add [1] S128 v 0x00000000#32 h hφ hacc (ix1 p) = ∑ k : Fin 128, v (ix2 p k) := by
  refine (Ideal.multiReduction_add_single v _ h hφ hacc (ix1 p)).trans ?_
  exact Finset.sum_congr rfl fun k _ => congrArg v (lift_row h p k)

/-- The lane sum kept as a column and spread over the columns: at `(p, j)` the sum of row `p`. -/
theorem rowSumSpread_apply (v : FVec Ideal S128x128 .f32) (h : S128x128.Reduces [1] S128) (hφ : FKind.Formats .f32)
    (hacc : (0x00000000#32 : BitVec 32) = FKind.add.neutral .f32 hφ) (hc : S128.ShapeCasts S128x1) (hb : S128x1.Broadcasts S128x8192)
    (p : Fin 128) (j : Fin 8192) :
    broadcastTo S128x8192 (shapeCast S128x1 (multiReduction (F := Ideal) .add [1] S128 v 0x00000000#32 h hφ hacc) hc) hb (ix2 p j)
      = ∑ k : Fin 128, v (ix2 p k) :=
  (broadcastTo_a1_ab_apply _ hb p j).trans ((shapeCast_a_a1_apply _ hc p 0).trans (rowSum_apply v h hφ hacc p))

/-- The row of column norms spread over the rows: at `(p, j)` its entry `j`. -/
theorem colSpread_apply (v : FVec Ideal S1x8192 .f32) (hc : S1x8192.ShapeCasts S1x8192) (hb : S1x8192.Broadcasts S128x8192)
    (p : Fin 128) (j : Fin 8192) :
    broadcastTo S128x8192 (shapeCast S1x8192 v hc) hb (ix2 p j) = v (ix2 0 j) := by
  rw [shapeCast_self]
  exact broadcastTo_1b_ab_apply v hb p j

/-- The contraction sum of a `[M, K]` by `[N, K]` product that contracts the second axis of both, re-indexed from
    the one-axis contraction index to `Fin K`: the left operand is read along row `p`, the right along row `j`. -/
theorem contraction_tb {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- The kernel's product: which coordinate of each operand is the output's and which the contracted one. -/
theorem lhs_dot_0 (i : S128x8192.Idx) (q : dot_S128x128_S8192x128_S128x8192_1_1_0_0_n_n.contr.Idx) :
    (dot_S128x128_S8192x128_S128x8192_1_1_0_0_n_n.lhsIdx i q 0).val = (i 0).val := rfl
theorem lhs_dot_1 (i : S128x8192.Idx) (q : dot_S128x128_S8192x128_S128x8192_1_1_0_0_n_n.contr.Idx) :
    (dot_S128x128_S8192x128_S128x8192_1_1_0_0_n_n.lhsIdx i q 1).val = (q ⟨0, by decide⟩).val := rfl
theorem rhs_dot_0 (i : S128x8192.Idx) (q : dot_S128x128_S8192x128_S128x8192_1_1_0_0_n_n.contr.Idx) :
    (dot_S128x128_S8192x128_S128x8192_1_1_0_0_n_n.rhsIdx i q 0).val = (i 1).val := rfl
theorem rhs_dot_1 (i : S128x8192.Idx) (q : dot_S128x128_S8192x128_S128x8192_1_1_0_0_n_n.contr.Idx) :
    (dot_S128x128_S8192x128_S128x8192_1_1_0_0_n_n.rhsIdx i q 1).val = (q ⟨0, by decide⟩).val := rfl

/-- The kernel's product into the zero accumulator at `(p, j)`: the inner product of row `p` of the left operand
    with row `j` of the right. -/
theorem gram_apply (l : FVec Ideal S128x128 .f32) (r : FVec Ideal S8192x128 .f32) (p : Fin 128) (j : Fin 8192) :
    matmul dot_S128x128_S8192x128_S128x8192_1_1_0_0_n_n none l r (constant (F := Ideal) S128x8192 .f32 0x00000000#32) (ix2 p j)
      = ∑ a : Fin 128, l (ix2 p a) * r (ix2 j a) := by
  show FloatOps.matmul dot_S128x128_S8192x128_S128x8192_1_1_0_0_n_n none l r (constant (F := Ideal) S128x8192 .f32 0x00000000#32) (ix2 p j) = _
  rw [Ideal.matmul_constant_zero_apply]
  exact contraction_tb dot_S128x128_S8192x128_S128x8192_1_1_0_0_n_n rfl rfl lhs_dot_0 lhs_dot_1 rhs_dot_0 rhs_dot_1 l r p j

/-! ## The row and column numbers and their groups, as words -/

/-- The row's number within the launch: the tile's number times 128 plus the row within the tile. -/
theorem rowWord_apply (i : grid0.Coords) (p : Fin 128) (u : Fin 1) :
    k0_pay6 i (ix2 p u) = BitVec.ofNat 32 (128 * (i 0).val + p.val) := by
  have hi : (i 0).val < 64 := (i 0).isLt
  refine Eq.trans ?_ (IntMath.row_word (i 0).val p.val hi p.isLt)
  unfold k0_pay6
  show IntOp.addi (Scalar.muli (BitVec.ofNat 32 (i 0).val) 128#32) (iota .tc S128x1 32 [0] iota_S128x1_d0_w32 (ix2 p u)) = _
  rw [iota_single_apply]
  rfl

/-- The column's number. -/
theorem colWord_apply (u : Fin 1) (j : Fin 8192) : colIota (ix2 u j) = BitVec.ofNat 32 j.val := by
  show iota .tc S1x8192 32 [1] iota_S1x8192_d1_w32 (ix2 u j) = _
  rw [iota_single_apply]

/-- The row's group number: the row's number over four. -/
theorem groupRow_apply (i : grid0.Coords) (p : Fin 128) (u : Fin 1) :
    k0_pay10 (k0_pay7 i) (k0_pay8 i) (k0_pay9 i) 0#32 (ix2 p u) = BitVec.ofNat 32 ((128 * (i 0).val + p.val) / 4) := by
  have hi : (i 0).val < 64 := (i 0).isLt
  have hp := p.isLt
  have h : k0_pay10 (k0_pay7 i) (k0_pay8 i) (k0_pay9 i) 0#32 (ix2 p u) = IntMath.kfloor4 (k0_pay6 i (ix2 p u)) := rfl
  rw [h, rowWord_apply, IntMath.kfloor4_ofNat _ (by omega)]

/-- The column's group number: the column's number over four. -/
theorem groupCol_apply (u : Fin 1) (j : Fin 8192) :
    k0_pay11 colIota (ix2 u j) = BitVec.ofNat 32 (j.val / 4) := by
  have h : k0_pay11 colIota (ix2 u j) = IntMath.kfloor4 (colIota (ix2 u j)) := rfl
  rw [h, colWord_apply, IntMath.kfloor4_ofNat _ j.isLt]

/-! ## The two masks -/

/-- A select on a bit that decides a proposition is the `if` on it. -/
theorem select_of_bit {α : Type} (P : Prop) [Decidable P] (c : BitVec 1) (hc : c = if P then 1#1 else 0#1) (a b : α) :
    Scalar.select c a b = if P then a else b := by
  subst hc
  by_cases h : P
  · rw [if_pos h, if_pos h]; exact select_one a b
  · rw [if_neg h, if_neg h]; exact select_zero a b

/-- Same group and not the same row, on the words of two numbers below 8192. -/
theorem homoBit (a b : ℕ) (ha : a < 8192) (hb : b < 8192) :
    IntOp.andi (IntOp.cmpi .eq (BitVec.ofNat 32 (a / 4)) (BitVec.ofNat 32 (b / 4)))
        (IntOp.xori (IntOp.cmpi .eq (BitVec.ofNat 32 a) (BitVec.ofNat 32 b)) 1#1)
      = if Spec.homoP a b then 1#1 else 0#1 := by
  rw [IntMath.cmpi_eq_ofNat _ _ (by omega) (by omega), IntMath.cmpi_eq_ofNat _ _ ha hb]
  by_cases h1 : a / 4 = b / 4
  · by_cases h2 : a = b
    · rw [if_pos h1, if_pos h2, if_neg (fun h : Spec.homoP a b => h.2 h2)]; rfl
    · rw [if_pos h1, if_neg h2, if_pos (show Spec.homoP a b from ⟨h1, h2⟩)]; rfl
  · by_cases h2 : a = b
    · rw [if_neg h1, if_pos h2, if_neg (fun h : Spec.homoP a b => h1 h.1)]; rfl
    · rw [if_neg h1, if_neg h2, if_neg (fun h : Spec.homoP a b => h1 h.1)]; rfl

/-- The row's group strictly before the column's, on the words of two numbers below 8192. -/
theorem heterBit (a b : ℕ) (ha : a < 8192) (hb : b < 8192) :
    IntOp.cmpi .slt (BitVec.ofNat 32 (a / 4)) (BitVec.ofNat 32 (b / 4)) = if Spec.heterP a b then 1#1 else 0#1 := by
  rw [IntMath.cmpi_slt_ofNat _ _ (by omega) (by omega)]
  by_cases h : a / 4 < b / 4
  · rw [if_pos h, if_pos (show Spec.heterP a b from h)]
  · rw [if_neg h, if_neg (show ¬Spec.heterP a b from h)]

/-- The same-group mask of a tile, as the body forms it from the row and column numbers and their groups. -/
def homoMaskOf (i : grid0.Coords) : IVec S128x8192 1 :=
  andi
    (cmpi .eq (broadcastTo S128x8192 (k0_pay10 (k0_pay7 i) (k0_pay8 i) (k0_pay9 i) 0#32) broadcasts_S128x1_S128x8192)
      (broadcastTo S128x8192 (k0_pay11 colIota) broadcasts_S1x8192_S128x8192))
    (xori (cmpi .eq (broadcastTo S128x8192 (k0_pay6 i) broadcasts_S128x1_S128x8192)
      (broadcastTo S128x8192 colIota broadcasts_S1x8192_S128x8192)) (constantI S128x8192 1 1#1))

/-- The same-group mask at `(p, j)`: the tile's row `p` and column `j` are distinct members of one group. -/
theorem homoMask_apply (i : grid0.Coords) (p : Fin 128) (j : Fin 8192) :
    homoMaskOf i (ix2 p j) = if Spec.homoP (128 * (i 0).val + p.val) j.val then 1#1 else 0#1 := by
  have hi : (i 0).val < 64 := (i 0).isLt
  have hp := p.isLt
  have h : homoMaskOf i (ix2 p j)
      = IntOp.andi
          (IntOp.cmpi .eq (broadcastTo S128x8192 (k0_pay10 (k0_pay7 i) (k0_pay8 i) (k0_pay9 i) 0#32) broadcasts_S128x1_S128x8192 (ix2 p j))
            (broadcastTo S128x8192 (k0_pay11 colIota) broadcasts_S1x8192_S128x8192 (ix2 p j)))
          (IntOp.xori (IntOp.cmpi .eq (broadcastTo S128x8192 (k0_pay6 i) broadcasts_S128x1_S128x8192 (ix2 p j))
            (broadcastTo S128x8192 colIota broadcasts_S1x8192_S128x8192 (ix2 p j))) 1#1) := rfl
  rw [h, broadcastTo_a1_ab_apply, broadcastTo_a1_ab_apply, broadcastTo_1b_ab_apply, broadcastTo_1b_ab_apply,
    groupRow_apply, groupCol_apply, rowWord_apply, colWord_apply]
  exact homoBit _ _ (by omega) j.isLt

/-- The cross-group mask at `(p, j)`: the tile's row `p` is in a group strictly before column `j`'s. -/
theorem heterMask_apply (i : grid0.Coords) (p : Fin 128) (j : Fin 8192) :
    k0_pay12 colIota (k0_pay7 i) (k0_pay8 i) (k0_pay9 i) 0#32 (ix2 p j)
      = if Spec.heterP (128 * (i 0).val + p.val) j.val then 1#1 else 0#1 := by
  have hi : (i 0).val < 64 := (i 0).isLt
  have hp := p.isLt
  have h : k0_pay12 colIota (k0_pay7 i) (k0_pay8 i) (k0_pay9 i) 0#32 (ix2 p j)
      = IntOp.cmpi .slt (broadcastTo S128x8192 (k0_pay10 (k0_pay7 i) (k0_pay8 i) (k0_pay9 i) 0#32) broadcasts_S128x1_S128x8192 (ix2 p j))
          (broadcastTo S128x8192 (k0_pay11 colIota) broadcasts_S1x8192_S128x8192 (ix2 p j)) := rfl
  rw [h, broadcastTo_a1_ab_apply, broadcastTo_1b_ab_apply, groupRow_apply, groupCol_apply]
  exact heterBit _ _ (by omega) j.isLt

/-! ## A tile's total sum -/

/-- The sum of a `[128, 8192]` array over both axes, as the body takes it (viewed `[1, 128, 8192]`, reduced to one
    entry, that entry extracted): the double sum over rows and columns. -/
theorem totalSum_apply (v : FVec Ideal S128x8192 .f32) (hc : S128x8192.ShapeCasts S1x128x8192) (hr : S1x128x8192.Reduces [1, 2] S1)
    (hφ : FKind.Formats .f32) (hacc : (0x00000000#32 : BitVec 32) = FKind.add.neutral .f32 hφ) (hc' : S1.ShapeCasts S1x1x1)
    (hp : ∀ a, (![0, 0, 0] : Fin 3 → Nat) a < S1x1x1.size a) :
    extractAt ![0, 0, 0] (shapeCast S1x1x1 (multiReduction (F := Ideal) .add [1, 2] S1 (shapeCast S1x128x8192 v hc) 0x00000000#32 hr hφ hacc) hc') hp
      = ∑ p : Fin 128, ∑ j : Fin 8192, v (ix2 p j) := by
  show multiReduction (F := Ideal) .add [1, 2] S1 (shapeCast S1x128x8192 v hc) 0x00000000#32 hr hφ hacc
      (Shape.reshapeEquiv hc' fun a => ⟨(![0, 0, 0] : Fin 3 → Nat) a, hp a⟩) = _
  refine (Ideal.multiReduction_add_total (shapeCast S1x128x8192 v hc) _ hr (fun b => ?_) hφ hacc _).trans ?_
  · match b with
    | ⟨0, _⟩ => rfl
  · show ∑ I : S1x128x8192.Idx, v (Shape.reshapeEquiv hc I) = _
    rw [Equiv.sum_comp (Shape.reshapeEquiv hc) v]
    exact sum_idx2 v

/-! ## The six readings -/

/-- The tile's squared distance at row `p` of the tile and column `j`: the row's squared norm (summed in the body),
    plus the column's (handed in as `x2`), minus twice the inner product of the tile's row with row `j` of `x1`. -/
theorem pay5_apply (x0 : Vec Ideal S128x128 .f32) (x1 : Vec Ideal S8192x128 .f32) (x2 : Vec Ideal S1x8192 .f32)
    (p : Fin 128) (j : Fin 8192) :
    k0_pay5 (F := Ideal) x0 x1 x2 (ix2 p j)
      = ((∑ k : Fin 128, x0 (ix2 p k) * x0 (ix2 p k)) + x2 (ix2 0 j)) - Spec.two * ∑ k : Fin 128, x0 (ix2 p k) * x1 (ix2 j k) := by
  have hA := rowSumSpread_apply (mulf (F := Ideal) (s := S128x128) (φ := .f32) x0 x0) reduces_S128x128_S128 (.inl rfl) rfl shapeCasts_S128_S128x1 broadcasts_S128x1_S128x8192 p j
  have hB := colSpread_apply x2 shapeCasts_S1x8192_S1x8192 broadcasts_S1x8192_S128x8192 p j
  have hC := gram_apply x0 x1 p j
  exact congrArg₂ (· - ·) (congrArg₂ (· + ·) hA hB) (congrArg (Spec.two * ·) hC)

/-- The tile's same-group sum: over the tile's rows and all columns, the squared distance where the pair is in one
    group and off the diagonal. The row's number is the tile's number times 128 plus the row within the tile. -/
theorem tileHomo_eq (i : grid0.Coords) (x0 : Vec Ideal S128x128 .f32) (x1 : Vec Ideal S8192x128 .f32) (x2 : Vec Ideal S1x8192 .f32) :
    tileHomo (F := Ideal) i x0 x1 x2
      = ∑ p : Fin 128, ∑ j : Fin 8192,
          if Spec.homoP (128 * (i 0).val + p.val) j.val then k0_pay5 (F := Ideal) x0 x1 x2 (ix2 p j) else 0 := by
  refine (totalSum_apply (select (homoMaskOf i) (k0_pay5 (F := Ideal) x0 x1 x2) (broadcast S128x8192 (Scalar.ofBits (F := Ideal) .f32 0x00000000#32)))
    shapeCasts_S128x8192_S1x128x8192 reduces_S1x128x8192_S1 (.inl rfl) rfl shapeCasts_S1_S1x1x1 inpos_S1x1x1_p0_0_0).trans ?_
  refine Finset.sum_congr rfl fun p _ => Finset.sum_congr rfl fun j _ => ?_
  refine (select_of_bit _ _ (homoMask_apply i p j) _ _).trans ?_
  exact congrArg (fun z : EReal => if Spec.homoP (128 * (i 0).val + p.val) j.val then k0_pay5 (F := Ideal) x0 x1 x2 (ix2 p j) else z) Ideal.ofBits_zero_f32

/-- Accumulator 3 after a tile, at its one entry. -/
theorem step3_apply (i : grid0.Coords) (x0 : Vec Ideal S128x128 .f32) (x1 : Vec Ideal S8192x128 .f32) (x2 : Vec Ideal S1x8192 .f32)
    (prev : Vec Ideal S1x1 .f32) (y : S1x1.Idx) :
    step3 (F := Ideal) i x0 x1 x2 prev y = prev y + tileHomo (F := Ideal) i x0 x1 x2 := by
  show shapeCast S1x1 prev shapeCasts_S1x1_S1x1 y + tileHomo (F := Ideal) i x0 x1 x2 = _
  rw [shapeCast_self]

/-- Accumulator 4 after a tile, at its one entry: what it held plus the tile's hinge sum over the cross-group pairs. -/
theorem step4_apply (i : grid0.Coords) (x0 : Vec Ideal S128x128 .f32) (x1 : Vec Ideal S8192x128 .f32) (x2 : Vec Ideal S1x8192 .f32)
    (prev : Vec Ideal S1x1 .f32) (y : S1x1.Idx) :
    step4 (F := Ideal) i x0 x1 x2 prev y
      = prev y + ∑ p : Fin 128, ∑ j : Fin 8192,
          if Spec.heterP (128 * (i 0).val + p.val) j.val then max (Spec.one - k0_pay5 (F := Ideal) x0 x1 x2 (ix2 p j)) 0 else 0 := by
  unfold step4 k0_pay2
  refine (addf_apply _ _ y).trans ?_
  refine congrArg₂ (· + ·) (congrFun (shapeCast_self prev _) y) ?_
  refine (broadcast_apply _ y).trans ?_
  refine (totalSum_apply _ _ _ _ _ _ _).trans ?_
  refine Finset.sum_congr rfl fun p _ => Finset.sum_congr rfl fun j _ => ?_
  refine (select_apply _ _ _ _).trans ?_
  refine (select_of_bit _ _ (heterMask_apply i p j) _ _).trans ?_
  refine congrArg₂ (fun a b : EReal => if Spec.heterP (128 * (i 0).val + p.val) j.val then a else b) ?_ Ideal.ofBits_zero_f32
  refine (maximumf_apply _ _ _).trans ?_
  refine congrArg₂ max ?_ Ideal.ofBits_zero_f32
  exact subf_apply _ _ _

/-- The accumulators start from zero. -/
theorem pay3_apply (y : S1x1.Idx) : k0_pay3 (F := Ideal) y = 0 := Ideal.ofBits_zero_f32
theorem pay4_apply (y : S1x1.Idx) : k0_pay4 (F := Ideal) y = 0 := Ideal.ofBits_zero_f32

end Cert.KernelIdeal.Hand

end
-- ==== Proof.KAcc.lean ====
/-
  The accumulators after the last tile are the two sums of Spec.lean, and the kernel's two results are the
  two losses.

  A tile's blocks are entries of the input: window 0's block at tile `t` is rows `128 t … 128 t + 127` of `x`,
  window 1's is all of `x`, window 2's is the row of squared norms that @main computed before the launch. So
  one tile adds, to each accumulator, the terms of the rows of that tile; after the 64 tiles every row has
  been added once.
-/
import proofs.«119142_j23682449670377_1_alg».proof.Proof.KData
import proofs.«119142_j23682449670377_1_alg».proof.Proof.KLaunch
import proofs.«119142_j23682449670377_1_alg».proof.Proof.KTile
import proofs.«119142_j23682449670377_1_alg».proof.Proof.Spec
import Idealize.ShloMosaic.PureOps.Ideal.Laws
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.ValueIdx Idealize.ShloMosaic.Tactic
open Idealize.SL.Sem
open Idealize.ShloMosaic.Pipeline (Dat Cfg Window)
open Cert.KernelIdeal Cert.KernelIdeal.Gen Cert.Spec

variable (m : (ℓ : Loc nD τ sig) → Buf (Elt Ideal) ℓ)

/-- The input on core `c`, as the function the losses are stated over. -/
abbrev X (c : Dev nD) : Spec.SX.Idx → EReal := m ((c.tc : Thread nD τ).loc main_arg0)

/-! ## The arrays as the launch finds them -/

/-- No operation before the launch writes the argument. -/
theorem V_arg0_eq (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  after_results

/-! ## Each window's block as entries of its array

A block's coordinate in the array is the block's index times the block's size plus the coordinate inside the block.
Window 0's index is `(t, 0)` with blocks of 128 rows; windows 1 and 2 have index `(0, 0)` and the whole array as block. -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 0's block at tile `t`: rows `128 t + p` of the input. -/
theorem iblk0_apply (c : Dev nD) (t : Fin cfg0.N) (p : Fin 128) (k : Fin 128) (h : 128 * t.val + p.val < 8192) :
    iblk (F := Ideal) m c 0 t (ix2 p k) = Spec.xAt (X m c) ⟨128 * t.val + p.val, h⟩ k := by
  unfold iblk
  rw [View.read_apply]
  show V m c main_arg0 _ = _
  rw [V_arg0_eq]
  unfold Spec.xAt X
  congr 1
  funext a
  apply Fin.ext
  match a with
  | ⟨0, _⟩ => show win0_0.index t 0 * 128 + 1 * p.val = 128 * t.val + p.val; rw [(idx0 t).1]; omega
  | ⟨1, _⟩ => show win0_0.index t 1 * 128 + 1 * k.val = k.val; rw [(idx0 t).2]; omega

/-- Window 1's block at any tile: the whole input. -/
theorem iblk1_apply (c : Dev nD) (t : Fin cfg0.N) (j : Fin 8192) (k : Fin 128) :
    iblk (F := Ideal) m c 1 t (ix2 j k) = Spec.xAt (X m c) j k := by
  unfold iblk
  rw [View.read_apply]
  show V m c main_arg0 _ = _
  rw [V_arg0_eq]
  unfold Spec.xAt X
  congr 1
  funext a
  apply Fin.ext
  match a with
  | ⟨0, _⟩ => show win0_1.index t 0 * 8192 + 1 * j.val = j.val; rw [(idx1 t).1]; omega
  | ⟨1, _⟩ => show win0_1.index t 1 * 128 + 1 * k.val = k.val; rw [(idx1 t).2]; omega

/-- The array window 2 is on: every row's sum of squares, laid out as one row. -/
theorem V_main_v2 (c : Dev nD) : (V m c main_v2 : S1x8192.Idx → EReal) =
    broadcastInDim S1x8192 ![1] bcast_S8192_S1x8192_1
      (Host.reduceAdd (F := Ideal) (mulf (F := Ideal) (m ((c : Thread nD τ).loc main_arg0) : S8192x128.Idx → EReal) (m ((c : Thread nD τ).loc main_arg0))) (constant (F := Ideal) S_ .f32 0x00000000#32) reducesTo_S8192x128_S8192_d1 h_S_) := by
  show StableHlo.after (List.flatten [hostOps0]) (fun b => m (c, b)) (Proc.devRef .tc main_v2) = _
  simp only [List.flatten_cons, List.flatten_nil, List.append_nil]
  after_results

theorem red_S8192x128 : Shape.Reduces S8192x128 [1] S8192 := by decide

/-- The row sums of squares, read at a row. -/
theorem sqrow_apply (x : S8192x128.Idx → EReal) (j : Fin 8192) :
    Host.reduceAdd (F := Ideal) (mulf (F := Ideal) (φ := .f32) x x) (constant (F := Ideal) S_ .f32 0x00000000#32) reducesTo_S8192x128_S8192_d1 h_S_ (ix1 j)
      = ∑ k : Fin 128, x (ix2 j k) * x (ix2 j k) := by
  unfold Host.reduceAdd
  rw [Ideal.hostReduceAdd_def, Ideal.hostReduceAdd_single reducesTo_S8192x128_S8192_d1 red_S8192x128]
  show Ideal.ofBits .f32 0x00000000#32 + _ = _
  rw [Ideal.ofBits_zero_f32, zero_add]
  show ∑ k : Fin 128, _ = _
  refine Finset.sum_congr rfl fun k _ => ?_
  rw [mulf_apply]
  have e : red_S8192x128.lift (ix1 j) k = ix2 j k := by
    funext a; apply Fin.ext
    match a with
    | ⟨0, _⟩ => rfl
    | ⟨1, _⟩ => rfl
  rw [e]

/-- Window 2's block at any tile: the squared norms of the rows, computed before the launch. -/
theorem iblk2_apply (c : Dev nD) (t : Fin cfg0.N) (j : Fin 8192) :
    iblk (F := Ideal) m c 2 t (ix2 0 j) = Spec.sq (X m c) j := by
  unfold iblk
  rw [View.read_apply]
  show (V m c main_v2 : S1x8192.Idx → EReal) _ = _
  rw [V_main_v2]
  rw [broadcastInDim_apply ![1] bcast_S8192_S1x8192_1 _ _ (ix1 j) (fun a => by
    match a with
    | ⟨0, _⟩ => show j.val = if (8192 : ℕ) = 1 then 0 else win0_2.index t 1 * 8192 + 1 * j.val; rw [(idx2 t).2]; simp)]
  rw [sqrow_apply]
  rfl

/-! ## One tile's terms -/

/-- The tile's squared distance is the specification's, once the three blocks are entries of the input. -/
theorem pay5_d2 (x : Spec.SX.Idx → EReal) (r : Fin 8192) (x0 : Vec Ideal S128x128 .f32) (x1 : Vec Ideal S8192x128 .f32)
    (x2 : Vec Ideal S1x8192 .f32) (p : Fin 128) (j : Fin 8192)
    (h0 : ∀ k : Fin 128, x0 (ix2 p k) = Spec.xAt x r k) (h1 : ∀ k : Fin 128, x1 (ix2 j k) = Spec.xAt x j k)
    (h2 : x2 (ix2 0 j) = Spec.sq x j) :
    k0_pay5 (F := Ideal) x0 x1 x2 (ix2 p j) = Spec.d2 x r j := by
  rw [pay5_apply]
  unfold Spec.d2 Spec.sq Spec.gram
  rw [h2]
  simp only [h0, h1]
  rfl

/-- Row `r`'s same-group terms added over the columns (zero for a row number past the array). -/
def homoRow (x : Spec.SX.Idx → EReal) (r : ℕ) : EReal :=
  if h : r < 8192 then ∑ j : Fin 8192, Spec.homoTerm x ⟨r, h⟩ j else 0
/-- Row `r`'s cross-group hinge terms added over the columns. -/
def heterRow (x : Spec.SX.Idx → EReal) (r : ℕ) : EReal :=
  if h : r < 8192 then ∑ j : Fin 8192, Spec.heterTerm x ⟨r, h⟩ j else 0

theorem coords0 : ∀ t : Fin cfg0.N, (grid0.coords t 0).val = t.val :=
  (by decide +kernel : ∀ t : Fin grid0.N, (grid0.coords t 0).val = t.val)

theorem row_lt (t : Fin cfg0.N) (p : Fin 128) : 128 * t.val + p.val < 8192 := by
  have h1 := t.isLt
  have h2 : cfg0.N = 64 := N_0
  have h3 := p.isLt
  omega

/-- A tile's same-group sum is the sum of its rows' terms. -/
theorem tile3 (c : Dev nD) (t : Fin cfg0.N) :
    tileHomo (F := Ideal) (grid0.coords t) (iblk m c 0 t) (iblk m c 1 t) (iblk m c 2 t)
      = ∑ p : Fin 128, homoRow (X m c) (128 * t.val + p.val) := by
  refine (tileHomo_eq (grid0.coords t) (iblk m c 0 t) (iblk m c 1 t) (iblk m c 2 t)).trans ?_
  refine Finset.sum_congr rfl fun p _ => ?_
  unfold homoRow
  rw [dif_pos (row_lt t p)]
  refine Finset.sum_congr rfl fun j _ => ?_
  unfold Spec.homoTerm
  rw [coords0 t]
  by_cases hP : Spec.homoP (128 * t.val + p.val) j.val
  · rw [if_pos hP, if_pos hP]
    exact pay5_d2 (X m c) ⟨128 * t.val + p.val, row_lt t p⟩ (iblk m c 0 t) (iblk m c 1 t) (iblk m c 2 t) p j
      (fun k => iblk0_apply m c t p k (row_lt t p)) (fun k => iblk1_apply m c t j k) (iblk2_apply m c t j)
  · rw [if_neg hP, if_neg hP]

/-- A tile's cross-group hinge sum is the sum of its rows' terms. -/
theorem tile4 (c : Dev nD) (t : Fin cfg0.N) :
    (∑ p : Fin 128, ∑ j : Fin 8192,
        if Spec.heterP (128 * (grid0.coords t 0).val + p.val) j.val
          then max (Spec.one - k0_pay5 (F := Ideal) (iblk m c 0 t) (iblk m c 1 t) (iblk m c 2 t) (ix2 p j)) 0 else 0)
      = ∑ p : Fin 128, heterRow (X m c) (128 * t.val + p.val) := by
  refine Finset.sum_congr rfl fun p _ => ?_
  unfold heterRow
  rw [dif_pos (row_lt t p)]
  refine Finset.sum_congr rfl fun j _ => ?_
  unfold Spec.heterTerm
  rw [coords0 t]
  by_cases hP : Spec.heterP (128 * t.val + p.val) j.val
  · rw [if_pos hP, if_pos hP]
    exact congrArg (fun d => max (Spec.one - d) 0)
      (pay5_d2 (X m c) ⟨128 * t.val + p.val, row_lt t p⟩ (iblk m c 0 t) (iblk m c 1 t) (iblk m c 2 t) p j
        (fun k => iblk0_apply m c t p k (row_lt t p)) (fun k => iblk1_apply m c t j k) (iblk2_apply m c t j))
  · rw [if_neg hP, if_neg hP]

/-! ## The accumulators after tile `n`: the terms of the rows of tiles `0 … n` -/

theorem acc3_eq (c : Dev nD) : ∀ (n : ℕ) (h : n < cfg0.N) (y : S1x1.Idx),
    acc3 (F := Ideal) m c n h y = ∑ u ∈ Finset.range (n + 1), ∑ p : Fin 128, homoRow (X m c) (128 * u + p.val)
  | 0, h, y => by
    rw [acc3_zero]
    refine (step3_apply (grid0.coords ⟨0, h⟩) (iblk m c 0 ⟨0, h⟩) (iblk m c 1 ⟨0, h⟩) (iblk m c 2 ⟨0, h⟩) (k0_pay3 (F := Ideal)) y).trans ?_
    rw [pay3_apply, zero_add, tile3 m c ⟨0, h⟩, Finset.sum_range_one]
  | n + 1, h, y => by
    rw [acc3_succ]
    refine (step3_apply (grid0.coords ⟨n + 1, h⟩) (iblk m c 0 ⟨n + 1, h⟩) (iblk m c 1 ⟨n + 1, h⟩) (iblk m c 2 ⟨n + 1, h⟩)
      (acc3 (F := Ideal) m c n (Nat.lt_of_succ_lt h)) y).trans ?_
    rw [acc3_eq c n (Nat.lt_of_succ_lt h) y, tile3 m c ⟨n + 1, h⟩, Finset.sum_range_succ _ (n + 1)]

theorem acc4_eq (c : Dev nD) : ∀ (n : ℕ) (h : n < cfg0.N) (y : S1x1.Idx),
    acc4 (F := Ideal) m c n h y = ∑ u ∈ Finset.range (n + 1), ∑ p : Fin 128, heterRow (X m c) (128 * u + p.val)
  | 0, h, y => by
    rw [acc4_zero]
    refine (step4_apply (grid0.coords ⟨0, h⟩) (iblk m c 0 ⟨0, h⟩) (iblk m c 1 ⟨0, h⟩) (iblk m c 2 ⟨0, h⟩) (k0_pay4 (F := Ideal)) y).trans ?_
    rw [pay4_apply, zero_add, tile4 m c ⟨0, h⟩, Finset.sum_range_one]
  | n + 1, h, y => by
    rw [acc4_succ]
    refine (step4_apply (grid0.coords ⟨n + 1, h⟩) (iblk m c 0 ⟨n + 1, h⟩) (iblk m c 1 ⟨n + 1, h⟩) (iblk m c 2 ⟨n + 1, h⟩)
      (acc4 (F := Ideal) m c n (Nat.lt_of_succ_lt h)) y).trans ?_
    rw [acc4_eq c n (Nat.lt_of_succ_lt h) y, tile4 m c ⟨n + 1, h⟩, Finset.sum_range_succ _ (n + 1)]

/-! ## Every row is in exactly one tile -/

/-- Adding `f` over `a` consecutive stretches of `b` numbers is adding it over the first `a · b` numbers. -/
theorem sum_tiles {M : Type} [AddCommMonoid M] (f : ℕ → M) (b : ℕ) : ∀ a : ℕ,
    ∑ u ∈ Finset.range a, ∑ p : Fin b, f (b * u + p.val) = ∑ r ∈ Finset.range (b * a), f r
  | 0 => by simp
  | a + 1 => by
    rw [Finset.sum_range_succ, sum_tiles f b a, Nat.mul_succ, Finset.sum_range_add,
      Fin.sum_univ_eq_sum_range (fun p => f (b * a + p)) b]

theorem homoSum_rows (x : Spec.SX.Idx → EReal) : ∑ r ∈ Finset.range 8192, homoRow x r = Spec.homoSum x := by
  rw [← Fin.sum_univ_eq_sum_range (fun r => homoRow x r) 8192]
  unfold Spec.homoSum
  refine Finset.sum_congr rfl fun r _ => ?_
  unfold homoRow
  rw [dif_pos r.isLt]

theorem heterSum_rows (x : Spec.SX.Idx → EReal) : ∑ r ∈ Finset.range 8192, heterRow x r = Spec.heterSum x := by
  rw [← Fin.sum_univ_eq_sum_range (fun r => heterRow x r) 8192]
  unfold Spec.heterSum
  refine Finset.sum_congr rfl fun r _ => ?_
  unfold heterRow
  rw [dif_pos r.isLt]

/-- After the last tile accumulator 3 holds the same-group sum, -/
theorem acc3_final (c : Dev nD) (h : 63 < cfg0.N) (y : S1x1.Idx) :
    acc3 (F := Ideal) m c 63 h y = Spec.homoSum (X m c) := by
  rw [acc3_eq m c 63 h y, sum_tiles (homoRow (X m c)) 128 64, homoSum_rows]

/-- and accumulator 4 the cross-group hinge sum. -/
theorem acc4_final (c : Dev nD) (h : 63 < cfg0.N) (y : S1x1.Idx) :
    acc4 (F := Ideal) m c 63 h y = Spec.heterSum (X m c) := by
  rw [acc4_eq m c 63 h y, sum_tiles (heterRow (X m c)) 128 64, heterSum_rows]

/-! ## What the launch writes back -/

/-- The one-entry array has one index. -/
theorem idx11_eq (i j : S1x1.Idx) : i = j := funext fun a => Fin.ext (by
  have hi := (i a).isLt
  have hj := (j a).isLt
  have h1 : ∀ a, S1x1.size a = 1 := by decide
  have := h1 a
  omega)

theorem last_of_flush3 (t : Fin cfg0.N) (hf : (cfg0.win 3).flush t = true) : t.val = 63 := by
  have h1 := (flush0_3 t).mp hf
  have h2 := t.isLt
  have h3 : cfg0.N = 64 := N_0
  omega
theorem last_of_flush4 (t : Fin cfg0.N) (hf : (cfg0.win 4).flush t = true) : t.val = 63 := by
  have h1 := (flush0_4 t).mp hf
  have h2 := t.isLt
  have h3 : cfg0.N = 64 := N_0
  omega

theorem blk3_facts : ∀ (t : Fin cfg0.N) (a : Fin 2), win0_3.index t a * win0_3.size a = 0 ∧ win0_3.xsize (grid0.coords t) a = 1 :=
  (by decide +kernel : ∀ (t : Fin grid0.N) (a : Fin 2), win0_3.index t a * win0_3.size a = 0 ∧ win0_3.xsize (grid0.coords t) a = 1)
theorem blk4_facts : ∀ (t : Fin cfg0.N) (a : Fin 2), win0_4.index t a * win0_4.size a = 0 ∧ win0_4.xsize (grid0.coords t) a = 1 :=
  (by decide +kernel : ∀ (t : Fin grid0.N) (a : Fin 2), win0_4.index t a * win0_4.size a = 0 ∧ win0_4.xsize (grid0.coords t) a = 1)

/-- What the pipeline writes back for window 3 is accumulator 3 after the last tile (its one block is the whole
    one-element array, written back once, at the end). -/
theorem arrAt3 (c : Dev nD) (h : 63 < cfg0.N) : (dats (F := Ideal) m 0 c).arrAt 3 cfg0.N = acc3 (F := Ideal) m c 63 h := by
  refine (dats (F := Ideal) m 0 c).arrAt_eq_of_cover 3 (acc3 (F := Ideal) m c 63 h) (fun t hf => ?_) (fun i => ?_)
  · obtain rfl : t = ⟨63, h⟩ := Fin.ext (last_of_flush3 t hf)
    funext y
    rw [View.read_apply]
    show (dats (F := Ideal) m 0 c).after 3 ⟨63, h⟩ _ = acc3 (F := Ideal) m c 63 h _
    rw [after0_3]
    exact congrArg (acc3 (F := Ideal) m c 63 h) (idx11_eq _ _)
  · refine ⟨⟨63, h⟩, (flush0_3 ⟨63, h⟩).mpr rfl, ?_⟩
    show i ∈ ((View.whole main_v3_0).slice (win0_3.rect ⟨63, h⟩)).set
    rw [View.set_slice_whole, Rect.mem_set_unit]
    intro a
    have hi : (i a).val < S1x1.size a := (i a).isLt
    have h1 : ∀ a, S1x1.size a = 1 := by decide
    have := h1 a
    have hb := blk3_facts ⟨63, h⟩ a
    show win0_3.index ⟨63, h⟩ a * win0_3.size a ≤ (i a).val ∧ (i a).val < win0_3.index ⟨63, h⟩ a * win0_3.size a + win0_3.xsize (grid0.coords ⟨63, h⟩) a
    rw [hb.1, hb.2]
    omega

theorem arrAt4 (c : Dev nD) (h : 63 < cfg0.N) : (dats (F := Ideal) m 0 c).arrAt 4 cfg0.N = acc4 (F := Ideal) m c 63 h := by
  refine (dats (F := Ideal) m 0 c).arrAt_eq_of_cover 4 (acc4 (F := Ideal) m c 63 h) (fun t hf => ?_) (fun i => ?_)
  · obtain rfl : t = ⟨63, h⟩ := Fin.ext (last_of_flush4 t hf)
    funext y
    rw [View.read_apply]
    show (dats (F := Ideal) m 0 c).after 4 ⟨63, h⟩ _ = acc4 (F := Ideal) m c 63 h _
    rw [after0_4]
    exact congrArg (acc4 (F := Ideal) m c 63 h) (idx11_eq _ _)
  · refine ⟨⟨63, h⟩, (flush0_4 ⟨63, h⟩).mpr rfl, ?_⟩
    show i ∈ ((View.whole main_v3_1).slice (win0_4.rect ⟨63, h⟩)).set
    rw [View.set_slice_whole, Rect.mem_set_unit]
    intro a
    have hi : (i a).val < S1x1.size a := (i a).isLt
    have h1 : ∀ a, S1x1.size a = 1 := by decide
    have := h1 a
    have hb := blk4_facts ⟨63, h⟩ a
    show win0_4.index ⟨63, h⟩ a * win0_4.size a ≤ (i a).val ∧ (i a).val < win0_4.index ⟨63, h⟩ a * win0_4.size a + win0_4.xsize (grid0.coords ⟨63, h⟩) a
    rw [hb.1, hb.2]
    omega

/-! ## The two results -/

theorem last_lt : 63 < cfg0.N := by
  have h3 : cfg0.N = 64 := N_0
  omega

/-- The one-entry array reshaped to a scalar reads its entry. -/
theorem scalar_of_1x1 (a : Vec Ideal S1x1 .f32) (j : S_.Idx) : shapeCast S_ a shapeCasts_S1x1_S_ j = a (ix2 0 0) := by
  refine shapeCast_apply a shapeCasts_S1x1_S_ j (ix2 0 0) ?_
  have h1 := (S1x1.rowMajor (ix2 0 0)).isLt
  have h2 := (S_.rowMajor j).isLt
  have e1 : S1x1.numel = 1 := by decide
  have e2 : S_.numel = 1 := by decide
  omega

/-- The kernel's first result is the same-group loss, -/
theorem res6_final (c : Dev nD) :
    res6 (F := Ideal) ((dats (F := Ideal) m 0 c).arrAt 3 cfg0.N) = fun _ => Spec.lossHomo (X m c) := by
  funext j
  rw [arrAt3 m c last_lt]
  unfold res6 Host.divf
  rw [Ideal.hostDivf_def, scalar_of_1x1, acc3_final m c last_lt]
  rfl

/-- and its second the cross-group loss (the literal divisor is the number of cross-group pairs). -/
theorem res7_final (c : Dev nD) :
    res7 (F := Ideal) ((dats (F := Ideal) m 0 c).arrAt 4 cfg0.N) = fun _ => Spec.lossHeter (X m c) := by
  funext j
  rw [arrAt4 m c last_lt]
  unfold res7 Host.divf
  rw [Ideal.hostDivf_def, scalar_of_1x1, acc4_final m c last_lt, constant_apply, Cert.IntMath.ofBits_cntHeter]
  rfl

end Cert.KernelIdeal.Hand

end
-- ==== Proof.RefDefs.lean ====
/-
  The reference's @main as pure functions of the input (any float instance): the squared-distance matrix,
  the group number of each row, the two masks, the count of cross-group pairs, and the two results.
-/
import proofs.«119142_j23682449670377_1_alg».proof.Proof.Gen.ReferenceIdeal
import Idealize.ShloMosaic.PureOps

noncomputable section

namespace Cert.ReferenceIdeal.Hand

open Idealize.ShloMosaic
open Cert.ReferenceIdeal Cert.ReferenceIdeal.Facts₀

variable {F : FTy → Type} [FloatOps F]

/-- Each row's squared norm: the row sums of `x * x`. -/
def sqv (x : FVec F S8192x128 .f32) : FVec F S8192 .f32 :=
  Host.reduceAdd (mulf x x) (constant S_ .f32 0x00000000#32) reducesTo_S8192x128_S8192_d1 h_S_

/-- The matrix of squared distances `(sq r + sq c) - 2 · (x xᵀ) r c`. -/
def d2m (x : FVec F S8192x128 .f32) : FVec F S8192x8192 .f32 :=
  let v1 : FVec F S8192 .f32 := sqv x
  let v2 : FVec F S8192x1 .f32 := broadcastInDim S8192x1 ![0] bcast_S8192_S8192x1_0 v1
  let v3 : FVec F S1x8192 .f32 := broadcastInDim S1x8192 ![1] bcast_S8192_S1x8192_1 v1
  let v4 : FVec F S8192x8192 .f32 := broadcastInDim S8192x8192 ![0, 1] bcast_S8192x1_S8192x8192_0_1 v2
  let v5 : FVec F S8192x8192 .f32 := broadcastInDim S8192x8192 ![0, 1] bcast_S1x8192_S8192x8192_0_1 v3
  let v6 : FVec F S8192x8192 .f32 := addf v4 v5
  let v7 : FVec F S128x8192 .f32 := transpose S128x8192 [1, 0] x transposes_S8192x128_S128x8192_1_0
  let v8 : FVec F S8192x8192 .f32 := Host.dotGeneral dot_S8192x128_S128x8192_S8192x8192_1_0_0_1_n_n none x v7
  let v9 : FVec F S8192x8192 .f32 := broadcastInDim S8192x8192 ![] bcast_S_S8192x8192 (constant S_ .f32 0x40000000#32)
  let v10 : FVec F S8192x8192 .f32 := mulf v9 v8
  subf v6 v10

/-- Each row's group number: the row number floor-divided by four, spelt as a truncating division corrected by the operands' signs and the remainder. -/
def gid : IVec S8192 32 :=
  let a0 : IVec S8192 32 := iotaInDim S8192 32 0
  let a1 : IVec S_ 32 := constantI S_ 32 4#32
  let v0 : IVec S_ 32 := id a1
  let v1 : IVec S8192 32 := broadcastInDim S8192 ![] bcast_S_S8192 v0
  let v2 : IVec S8192 32 := Host.divsi a0 v1
  let v3 : IVec S8192 32 := signi a0
  let v4 : IVec S_ 32 := signi v0
  let v5 : IVec S8192 32 := broadcastInDim S8192 ![] bcast_S_S8192 v4
  let v6 : IVec S8192 1 := cmpi .ne v3 v5
  let v7 : IVec S8192 32 := broadcastInDim S8192 ![] bcast_S_S8192 v0
  let v8 : IVec S8192 32 := Host.remsi a0 v7
  let c : IVec S_ 32 := constantI S_ 32 0#32
  let v9 : IVec S8192 32 := broadcastInDim S8192 ![] bcast_S_S8192 c
  let v10 : IVec S8192 1 := cmpi .ne v8 v9
  let v11 : IVec S8192 1 := andi v6 v10
  let c_0 : IVec S_ 32 := constantI S_ 32 1#32
  let v12 : IVec S8192 32 := broadcastInDim S8192 ![] bcast_S_S8192 c_0
  let v13 : IVec S8192 32 := subi v2 v12
  select v11 v13 v2

/-- The group number of the row, laid out over the matrix. -/
def growM : IVec S8192x8192 32 :=
  broadcastInDim S8192x8192 ![0, 1] bcast_S8192x1_S8192x8192_0_1 (broadcastInDim S8192x1 ![0] bcast_S8192_S8192x1_0 gid)
/-- The group number of the column, laid out over the matrix. -/
def gcolM : IVec S8192x8192 32 :=
  broadcastInDim S8192x8192 ![0, 1] bcast_S1x8192_S8192x8192_0_1 (broadcastInDim S1x8192 ![1] bcast_S8192_S1x8192_1 gid)

/-- Same group and off the diagonal. -/
def homoMask : IVec S8192x8192 1 :=
  let v18 : IVec S8192x8192 1 := cmpi .eq growM gcolM
  let v19 : IVec S8192x8192 32 := iotaInDim S8192x8192 32 0
  let v20 : IVec S8192x8192 32 := iotaInDim S8192x8192 32 1
  let v21 : IVec S8192x8192 32 := broadcastInDim S8192x8192 ![] bcast_S_S8192x8192 (constantI S_ 32 0#32)
  let v22 : IVec S8192x8192 32 := addi v19 v21
  let v23 : IVec S8192x8192 1 := cmpi .eq v22 v20
  let v24 : IVec S8192x8192 1 := noti v23
  andi v18 v24

/-- The row's group strictly before the column's. -/
def heterMask : IVec S8192x8192 1 := cmpi .slt growM gcolM

/-- The number of cross-group pairs, counted, as a float. -/
def cnt : FVec F S_ .f32 :=
  sitofp .f32 (Host.reduce IntOp.addi (extui 32 heterMask natLt_1_32) (constantI S_ 32 0#32) reducesTo_S8192x8192_S_d0_1 h_S_)

/-- The zero matrix whose entries stand where a mask is off. -/
def zerosM : FVec F S8192x8192 .f32 :=
  broadcastInDim S8192x8192 ![] bcast_S_S8192x8192 (id (constant S_ .f32 0x00000000#32))

/-- The first result: the masked sum of squared distances over 24576. -/
def res36 (x : FVec F S8192x128 .f32) : FVec F S_ .f32 :=
  Host.divf (Host.reduceAdd (select homoMask (d2m x) zerosM) (constant S_ .f32 0x00000000#32) reducesTo_S8192x8192_S_d0_1 h_S_)
    (constant S_ .f32 0x46C00000#32)

/-- The second result: the masked sum of `max (1 - d², 0)` over the counted number of cross-group pairs. -/
def res43 (x : FVec F S8192x128 .f32) : FVec F S_ .f32 :=
  let v37 : FVec F S8192x8192 .f32 := broadcastInDim S8192x8192 ![] bcast_S_S8192x8192 (constant S_ .f32 0x3F800000#32)
  let v38 : FVec F S8192x8192 .f32 := subf v37 (d2m x)
  let v39 : FVec F S8192x8192 .f32 := broadcastInDim S8192x8192 ![] bcast_S_S8192x8192 (constant S_ .f32 0x00000000#32)
  let v40 : FVec F S8192x8192 .f32 := maximumf v38 v39
  Host.divf (Host.reduceAdd (select heterMask v40 zerosM) (constant S_ .f32 0x00000000#32) reducesTo_S8192x8192_S_d0_1 h_S_)
    (cnt (F := F))

end Cert.ReferenceIdeal.Hand

end
-- ==== Proof.RefRun.lean ====
/-
  The reference's run: @main is a straight line of host operations (three of them calls of outlined
  functions, whose bodies run on the call's own buffers), so every weakly fair execution ends with each
  result at the operations' composed term of the argument.
-/
import proofs.«119142_j23682449670377_1_alg».proof.Proof.RefDefs
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem Idealize.ShloMosaic.StableHlo
open Cert.ReferenceIdeal Cert.ReferenceIdeal.Facts₀

variable {F : FTy → Type} [FloatOps F]

/-- @main's operations in order, each call replaced by its callee's operations over the call's own buffers:
    sixteen of @main, the seventeen of the integer floor division (its select last), thirty-one of @main
    around the two masked selects (three each), and the two quotients. -/
abbrev ops : List (HloOp τ sig (Elt F)) :=
  [ StableHlo.binary main_arg0 main_arg0 main_v0 (mulf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.binary main_v0 main_cst main_v1 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v1 main_v2 (broadcastInDim S8192x1 ![0] bcast_S8192_S8192x1_0 : (⟨S8192, .f32⟩ : BufTy).Contents (Elt F) → (⟨S8192x1, .f32⟩ : BufTy).Contents (Elt F)),
    StableHlo.unary main_v1 main_v3 (broadcastInDim S1x8192 ![1] bcast_S8192_S1x8192_1 : (⟨S8192, .f32⟩ : BufTy).Contents (Elt F) → (⟨S1x8192, .f32⟩ : BufTy).Contents (Elt F)),
    StableHlo.unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    StableHlo.unary main_arg0 main_v7 ((transpose S128x8192 [1, 0] · transposes_S8192x128_S128x8192_1_0) : (⟨S8192x128, .f32⟩ : BufTy).Contents (Elt F) → (⟨S128x8192, .f32⟩ : BufTy).Contents (Elt F)),
    StableHlo.binary main_arg0 main_v7 main_v8 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_0 (constant S_ .f32 0x40000000#32),
    StableHlo.unary main_cst_0 main_v9 (broadcastInDim S8192x8192 ![] bcast_S_S8192x8192 : (⟨S_, .f32⟩ : BufTy).Contents (Elt F) → (⟨S8192x8192, .f32⟩ : BufTy).Contents (Elt F)),
    StableHlo.binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    StableHlo.binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    StableHlo.nullary main_v12 (iotaInDim S8192 32 0),
    StableHlo.nullary main_c (constantI S_ 32 4#32),
    StableHlo.TRef.unary (.of main_c : StableHlo.TRef sig ⟨S_, .i32⟩) main_call0.v0 id,
    StableHlo.TRef.unary main_call0.v0 main_call0.v1 (broadcastInDim S8192 ![] bcast_S_S8192),
    StableHlo.TRef.binary (.of main_v12 : StableHlo.TRef sig ⟨S8192, .i32⟩) main_call0.v1 main_call0.v2 Host.divsi,
    StableHlo.TRef.unary (.of main_v12 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (.of main_v12 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.unary main_v13 main_v14 (broadcastInDim S8192x1 ![0] bcast_S8192_S8192x1_0 : (⟨S8192, .i32⟩ : BufTy).Contents (Elt F) → (⟨S8192x1, .i32⟩ : BufTy).Contents (Elt F)),
    StableHlo.unary main_v13 main_v15 (broadcastInDim S1x8192 ![1] bcast_S8192_S1x8192_1 : (⟨S8192, .i32⟩ : BufTy).Contents (Elt F) → (⟨S1x8192, .i32⟩ : BufTy).Contents (Elt F)),
    StableHlo.unary main_v14 main_v16 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v15 main_v17 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v16 main_v17 main_v18 (cmpi .eq : (⟨S8192x8192, .i32⟩ : BufTy).Contents (Elt F) → (⟨S8192x8192, .i32⟩ : BufTy).Contents (Elt F) → (⟨S8192x8192, .i1⟩ : BufTy).Contents (Elt F)),
    StableHlo.nullary main_v19 (iotaInDim S8192x8192 32 0),
    StableHlo.nullary main_v20 (iotaInDim S8192x8192 32 1),
    StableHlo.nullary main_c_1 (constantI S_ 32 0#32),
    StableHlo.unary main_c_1 main_v21 (broadcastInDim S8192x8192 ![] bcast_S_S8192x8192 : (⟨S_, .i32⟩ : BufTy).Contents (Elt F) → (⟨S8192x8192, .i32⟩ : BufTy).Contents (Elt F)),
    StableHlo.binary main_v19 main_v21 main_v22 (addi : (⟨S8192x8192, .i32⟩ : BufTy).Contents (Elt F) → (⟨S8192x8192, .i32⟩ : BufTy).Contents (Elt F) → (⟨S8192x8192, .i32⟩ : BufTy).Contents (Elt F)),
    StableHlo.binary main_v22 main_v20 main_v23 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v23 main_v24 (noti : (⟨S8192x8192, .i1⟩ : BufTy).Contents (Elt F) → (⟨S8192x8192, .i1⟩ : BufTy).Contents (Elt F)),
    StableHlo.binary main_v18 main_v24 main_v25 (andi : (⟨S8192x8192, .i1⟩ : BufTy).Contents (Elt F) → (⟨S8192x8192, .i1⟩ : BufTy).Contents (Elt F) → (⟨S8192x8192, .i1⟩ : BufTy).Contents (Elt F)),
    StableHlo.unary main_v13 main_v26 (broadcastInDim S8192x1 ![0] bcast_S8192_S8192x1_0 : (⟨S8192, .i32⟩ : BufTy).Contents (Elt F) → (⟨S8192x1, .i32⟩ : BufTy).Contents (Elt F)),
    StableHlo.unary main_v13 main_v27 (broadcastInDim S1x8192 ![1] bcast_S8192_S1x8192_1 : (⟨S8192, .i32⟩ : BufTy).Contents (Elt F) → (⟨S1x8192, .i32⟩ : BufTy).Contents (Elt F)),
    StableHlo.unary main_v26 main_v28 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v27 main_v29 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v28 main_v29 main_v30 (cmpi .slt : (⟨S8192x8192, .i32⟩ : BufTy).Contents (Elt F) → (⟨S8192x8192, .i32⟩ : BufTy).Contents (Elt F) → (⟨S8192x8192, .i1⟩ : BufTy).Contents (Elt F)),
    StableHlo.unary main_v30 main_v31 ((extui 32 · natLt_1_32) : (⟨S8192x8192, .i1⟩ : BufTy).Contents (Elt F) → (⟨S8192x8192, .i32⟩ : BufTy).Contents (Elt F)),
    StableHlo.nullary main_c_2 (constantI S_ 32 0#32),
    StableHlo.binary main_v31 main_c_2 main_v32 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    StableHlo.unary main_v32 main_v33 (sitofp .f32 : (⟨S_, .i32⟩ : BufTy).Contents (Elt F) → (⟨S_, .f32⟩ : BufTy).Contents (Elt F)),
    StableHlo.nullary main_cst_3 (constant S_ .f32 0x00000000#32),
    StableHlo.TRef.unary (.of main_cst_3 : StableHlo.TRef sig ⟨S_, .f32⟩) main_call1.v0 id,
    StableHlo.TRef.unary main_call1.v0 main_call1.v1 (broadcastInDim S8192x8192 ![] bcast_S_S8192x8192),
    StableHlo.TRef.ternary (.of main_v25 : StableHlo.TRef sig ⟨S8192x8192, .i1⟩) (.of main_v11 : StableHlo.TRef sig ⟨S8192x8192, .f32⟩) main_call1.v1 main_call1.v2 select,
    StableHlo.nullary main_cst_4 (constant S_ .f32 0x00000000#32),
    StableHlo.binary main_v34 main_cst_4 main_v35 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_cst_5 (constant S_ .f32 0x46C00000#32),
    StableHlo.binary main_v35 main_cst_5 main_v36 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3F800000#32),
    StableHlo.unary main_cst_6 main_v37 (broadcastInDim S8192x8192 ![] bcast_S_S8192x8192 : (⟨S_, .f32⟩ : BufTy).Contents (Elt F) → (⟨S8192x8192, .f32⟩ : BufTy).Contents (Elt F)),
    StableHlo.binary main_v37 main_v11 main_v38 (subf : (⟨S8192x8192, .f32⟩ : BufTy).Contents (Elt F) → (⟨S8192x8192, .f32⟩ : BufTy).Contents (Elt F) → (⟨S8192x8192, .f32⟩ : BufTy).Contents (Elt F)),
    StableHlo.nullary main_cst_7 (constant S_ .f32 0x00000000#32),
    StableHlo.unary main_cst_7 main_v39 (broadcastInDim S8192x8192 ![] bcast_S_S8192x8192 : (⟨S_, .f32⟩ : BufTy).Contents (Elt F) → (⟨S8192x8192, .f32⟩ : BufTy).Contents (Elt F)),
    StableHlo.binary main_v38 main_v39 main_v40 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_8 (constant S_ .f32 0x00000000#32),
    StableHlo.TRef.unary (.of main_cst_8 : StableHlo.TRef sig ⟨S_, .f32⟩) main_call2.v0 id,
    StableHlo.TRef.unary main_call2.v0 main_call2.v1 (broadcastInDim S8192x8192 ![] bcast_S_S8192x8192),
    StableHlo.TRef.ternary (.of main_v30 : StableHlo.TRef sig ⟨S8192x8192, .i1⟩) (.of main_v40 : StableHlo.TRef sig ⟨S8192x8192, .f32⟩) main_call2.v1 main_call2.v2 select,
    StableHlo.nullary main_cst_9 (constant S_ .f32 0x00000000#32),
    StableHlo.binary main_v41 main_cst_9 main_v42 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v42 main_v33 main_v43 (Host.divf : (⟨S_, .f32⟩ : BufTy).Contents (Elt F) → (⟨S_, .f32⟩ : BufTy).Contents (Elt F) → (⟨S_, .f32⟩ : BufTy).Contents (Elt F)) ]

set_option maxRecDepth 8192 in
/-- @main is that straight line: the callees' bodies unfold at their calls and sequencing reassociates, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., unary_bufs_sub .., unary_bufs_sub ..,
    unary_bufs_sub .., binary_bufs_sub .., nullary_bufs_sub .., nullary_bufs_sub .., nullary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., unary_bufs_sub .., nullary_bufs_sub .., binary_bufs_sub ..,
    unary_bufs_sub .., nullary_bufs_sub .., unary_bufs_sub .., unary_bufs_sub .., ternary_bufs_sub .., nullary_bufs_sub ..,
    binary_bufs_sub .., nullary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., binary_bufs_sub ..⟩

set_option maxRecDepth 8192 in
set_option maxHeartbeats 2000000 in
/-- The fold at the first result is `res36` of the argument: each operation's result read at its own buffer, the
    buffers told apart as references; the composed term is the transcription's, by computation. -/
theorem v36_eq (V : Valuation τ sig (Elt F)) :
    after ops V (main_v36 : DevRef τ sig) = res36 (V (main_arg0 : DevRef τ sig)) := by
  after_results_simp
  rfl

set_option maxRecDepth 8192 in
set_option maxHeartbeats 2000000 in
/-- The fold at the second result is `res43` of the argument. -/
theorem v43_eq (V : Valuation τ sig (Elt F)) :
    after ops V (main_v43 : DevRef τ sig) = res43 (V (main_arg0 : DevRef τ sig)) := by
  after_results_simp
  rfl

set_option maxRecDepth 8192 in
set_option maxHeartbeats 2000000 in
/-- No operation writes the argument. -/
theorem arg0_eq (V : Valuation τ sig (Elt F)) :
    after ops V (main_arg0 : DevRef τ sig) = V (main_arg0 : DevRef τ sig) := by
  after_results_simp

/-- Every weakly fair execution of the reference's @main terminates without a fault, with the two results at
    `res36` / `res43` of the argument and the argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v36) = res36 (m ((c.tc : Thread nD τ).loc main_arg0))
      ∧ r.2.mem ((c.tc : Thread nD τ).loc main_v43) = res43 (m ((c.tc : Thread nD τ).loc main_arg0))
      ∧ r.2.mem ((c.tc : Thread nD τ).loc main_arg0) = m ((c.tc : Thread nD τ).loc main_arg0)) :=
  (θ_run defs _ _).mono (fun _ h c => ⟨(h c main_v36).trans (v36_eq _), (h c main_v43).trans (v43_eq _),
      (h c main_arg0).trans (arg0_eq _)⟩)
    (run_seq scopedRefs_eq scopedSems_eq defs main (fun _ => ops) main_eq (fun _ => ops_sub) m ρ)

end Cert.ReferenceIdeal.Hand

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.RefValue.lean ====
/-
  The reference's two results, read at the extended reals, are the two losses of Spec.lean.

  Each row's squared norm is the sum of its squared entries; the product of the input with its transpose is, at a pair
  of rows, their inner product; so the distance matrix at (r, c) is (sq r + sq c) - 2 · gram r c. A row's group number is
  the quotient of its number by four, so the same-group mask at (r, c) says r / 4 = c / 4 and r ≠ c, and the cross-group
  mask says r / 4 < c / 4. Summing the widened cross-group mask counts the pairs, 33538048 of them, without wrapping
  at 32 bits. The two results are the masked total sums over all pairs divided by 24576 and by that count.
-/
import proofs.«119142_j23682449670377_1_alg».proof.Proof.RefDefs
import proofs.«119142_j23682449670377_1_alg».proof.Proof.Spec
import proofs.«119142_j23682449670377_1_alg».proof.Proof.IntMath
import proofs.«119142_j23682449670377_1_alg».proof.Proof.LibDot2
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.Hand

open Idealize.ShloMosaic Idealize.ShloMosaic.ValueIdx
open Cert.ReferenceIdeal Cert.ReferenceIdeal.Facts₀ Cert.Spec

/-! ## The distance matrix -/

/-- The index a row sum inserts its summation coordinate into: row `r`, column `k`. -/
theorem lift_row (h : S8192x128.Reduces [1] S8192) (r : Fin 8192) (k : Fin 128) :
    h.lift (ix1 r) k = ix2 r k := by
  funext a; match a with | ⟨0, _⟩ => rfl | ⟨1, _⟩ => rfl

/-- A row's squared norm as the reference sums it. -/
theorem sqv_apply (x : FVec Ideal S8192x128 .f32) (r : Fin 8192) :
    sqv (F := Ideal) x (ix1 r) = Spec.sq x r := by
  have h : S8192x128.Reduces [1] S8192 := by decide
  unfold sqv Host.reduceAdd
  rw [Ideal.hostReduceAdd_def, Ideal.hostReduceAdd_single reducesTo_S8192x128_S8192_d1 h]
  show Ideal.ofBits .f32 0x00000000#32 + _ = _
  rw [Ideal.ofBits_zero_f32, zero_add]
  unfold Spec.sq Spec.xAt
  refine Finset.sum_congr rfl fun k _ => ?_
  rw [lift_row h r k]
  rfl

section Bcast
variable {α : Type}

/-- A vector laid along the rows of a matrix, read at a pair: the row's entry. -/
theorem rowsM_apply (v : S8192.Idx → α) (r c : Fin 8192) :
    broadcastInDim S8192x8192 ![0, 1] bcast_S8192x1_S8192x8192_0_1
      (broadcastInDim S8192x1 ![0] bcast_S8192_S8192x1_0 v) (ix2 r c) = v (ix1 r) := by
  refine (broadcastInDim_apply _ _ _ (ix2 r c) (ix2 r (0 : Fin 1)) fun a => ?_).trans ?_
  · match a with
    | ⟨0, _⟩ => rfl
    | ⟨1, _⟩ => rfl
  · refine broadcastInDim_apply _ _ _ _ (ix1 r) fun a => ?_
    match a with
    | ⟨0, _⟩ => rfl

/-- A vector laid along the columns of a matrix, read at a pair: the column's entry. -/
theorem colsM_apply (v : S8192.Idx → α) (r c : Fin 8192) :
    broadcastInDim S8192x8192 ![0, 1] bcast_S1x8192_S8192x8192_0_1
      (broadcastInDim S1x8192 ![1] bcast_S8192_S1x8192_1 v) (ix2 r c) = v (ix1 c) := by
  refine (broadcastInDim_apply _ _ _ (ix2 r c) (ix2 (0 : Fin 1) c) fun a => ?_).trans ?_
  · match a with
    | ⟨0, _⟩ => rfl
    | ⟨1, _⟩ => rfl
  · refine broadcastInDim_apply _ _ _ _ (ix1 c) fun a => ?_
    match a with
    | ⟨0, _⟩ => rfl

/-- A scalar laid over the matrix reads the scalar. -/
theorem scalM_apply (v : S_.Idx → α) (j : S8192x8192.Idx) :
    broadcastInDim S8192x8192 ![] bcast_S_S8192x8192 v j = v ix0 := by
  refine broadcastInDim_apply _ _ _ j ix0 fun a => a.elim0

/-- A scalar laid over a vector reads the scalar. -/
theorem scalV_apply (v : S_.Idx → α) (j : S8192.Idx) :
    broadcastInDim S8192 ![] bcast_S_S8192 v j = v ix0 := by
  refine broadcastInDim_apply _ _ _ j ix0 fun a => a.elim0

end Bcast

/-- The transposed input at (k, c) is the input at (c, k). -/
theorem xT_apply (x : FVec Ideal S8192x128 .f32) (k : Fin 128) (c : Fin 8192) :
    transpose S128x8192 [1, 0] x transposes_S8192x128_S128x8192_1_0 (ix2 k c) = x (ix2 c k) := by
  refine transpose_apply _ _ _ _ (ix2 c k) fun b => ?_
  match b with
  | ⟨0, _⟩ => rfl
  | ⟨1, _⟩ => rfl

/-- The product's dimension numbers: the left operand is read at (output row, contraction position), the right at
    (contraction position, output column). -/
theorem dotD_lhs0 (i : S8192x8192.Idx) (q : dot_S8192x128_S128x8192_S8192x8192_1_0_0_1_n_n.contr.Idx) :
    (dot_S8192x128_S128x8192_S8192x8192_1_0_0_1_n_n.lhsIdx i q 0).val = (i 0).val := rfl
theorem dotD_lhs1 (i : S8192x8192.Idx) (q : dot_S8192x128_S128x8192_S8192x8192_1_0_0_1_n_n.contr.Idx) :
    (dot_S8192x128_S128x8192_S8192x8192_1_0_0_1_n_n.lhsIdx i q 1).val = (q ⟨0, by decide⟩).val := rfl
theorem dotD_rhs0 (i : S8192x8192.Idx) (q : dot_S8192x128_S128x8192_S8192x8192_1_0_0_1_n_n.contr.Idx) :
    (dot_S8192x128_S128x8192_S8192x8192_1_0_0_1_n_n.rhsIdx i q 0).val = (q ⟨0, by decide⟩).val := rfl
theorem dotD_rhs1 (i : S8192x8192.Idx) (q : dot_S8192x128_S128x8192_S8192x8192_1_0_0_1_n_n.contr.Idx) :
    (dot_S8192x128_S128x8192_S8192x8192_1_0_0_1_n_n.rhsIdx i q 1).val = (i 1).val := rfl

/-- The product of the input with its transpose at a pair of rows: their inner product. -/
theorem gramM_apply (x : FVec Ideal S8192x128 .f32) (r c : Fin 8192) :
    Host.dotGeneral (F := Ideal) dot_S8192x128_S128x8192_S8192x8192_1_0_0_1_n_n none x
      (transpose S128x8192 [1, 0] x transposes_S8192x128_S128x8192_1_0) (ix2 r c) = Spec.gram x r c := by
  unfold Host.dotGeneral
  rw [Ideal.dotGeneral_apply]
  rw [Cert.Lib.Dot2.contraction_ix2 dot_S8192x128_S128x8192_S8192x8192_1_0_0_1_n_n rfl rfl dotD_lhs0 dotD_lhs1 dotD_rhs0 dotD_rhs1]
  unfold Spec.gram Spec.xAt
  refine Finset.sum_congr rfl fun k _ => ?_
  rw [xT_apply]

/-- The squared-distance matrix at row `r`, column `c`. -/
theorem d2m_apply (x : FVec Ideal S8192x128 .f32) (r c : Fin 8192) :
    d2m (F := Ideal) x (ix2 r c) = Spec.d2 x r c := by
  unfold d2m
  simp only []
  rw [subf_apply, addf_apply, mulf_apply, rowsM_apply, colsM_apply, scalM_apply, gramM_apply, sqv_apply, sqv_apply]
  rfl

/-! ## Group numbers and the two masks -/

/-- Each row's group number is the row number floor-divided by four, spelt on one word. -/
theorem gid_word (r : Fin 8192) : gid (ix1 r) = Cert.IntMath.hfloor4 (BitVec.ofNat 32 r.val) := rfl

/-- Each row's group number. -/
theorem gid_apply (r : Fin 8192) : gid (ix1 r) = BitVec.ofNat 32 (r.val / 4) := by
  rw [gid_word, Cert.IntMath.hfloor4_ofNat _ r.isLt]

theorem growM_apply (r c : Fin 8192) : growM (ix2 r c) = BitVec.ofNat 32 (r.val / 4) := by
  unfold growM
  rw [rowsM_apply, gid_apply]

theorem gcolM_apply (r c : Fin 8192) : gcolM (ix2 r c) = BitVec.ofNat 32 (c.val / 4) := by
  unfold gcolM
  rw [colsM_apply, gid_apply]

/-- The cross-group mask at a pair. -/
theorem heterMask_apply (r c : Fin 8192) : heterMask (ix2 r c) = if Spec.heterP r.val c.val then 1#1 else 0#1 := by
  unfold heterMask
  show IntOp.cmpi .slt (growM (ix2 r c)) (gcolM (ix2 r c)) = _
  rw [growM_apply, gcolM_apply, Cert.IntMath.cmpi_slt_ofNat _ _ (by have := r.isLt; omega) (by have := c.isLt; omega)]
  rfl

/-- Same group and off the diagonal, at a pair. -/
theorem homoMask_apply (r c : Fin 8192) : homoMask (ix2 r c) = if Spec.homoP r.val c.val then 1#1 else 0#1 := by
  have e : homoMask (ix2 r c) = IntOp.andi (IntOp.cmpi .eq (growM (ix2 r c)) (gcolM (ix2 r c)))
      (~~~ IntOp.cmpi .eq (BitVec.ofNat 32 r.val + 0#32) (BitVec.ofNat 32 c.val)) := rfl
  rw [e, growM_apply, gcolM_apply, BitVec.add_zero,
    Cert.IntMath.cmpi_eq_ofNat _ _ (by have := r.isLt; omega) (by have := c.isLt; omega),
    Cert.IntMath.cmpi_eq_ofNat _ _ r.isLt c.isLt]
  by_cases h1 : r.val / 4 = c.val / 4 <;> by_cases h2 : r.val = c.val
  · rw [if_pos h1, if_pos h2, if_neg (fun h : Spec.homoP r.val c.val => h.2 h2)]; decide
  · have hp : Spec.homoP r.val c.val := ⟨h1, h2⟩
    rw [if_pos h1, if_neg h2, if_pos hp]; decide
  · rw [if_neg h1, if_pos h2, if_neg (fun h : Spec.homoP r.val c.val => h1 h.1)]; decide
  · rw [if_neg h1, if_neg h2, if_neg (fun h : Spec.homoP r.val c.val => h1 h.1)]; decide

/-! ## The count of cross-group pairs -/

/-- The word the reference counts: the number of cross-group pairs. -/
theorem cnt_word (j : S_.Idx) :
    Host.reduce IntOp.addi (extui 32 heterMask natLt_1_32) (constantI S_ 32 0#32) reducesTo_S8192x8192_S_d0_1 h_S_ j
      = BitVec.ofNat 32 33538048 := by
  classical
  rw [Host.reduce_eq_fold]
  have hall : (Finset.univ.filter fun i : S8192x8192.Idx => reducesTo_S8192x8192_S_d0_1.drop i = j) = Finset.univ :=
    Finset.filter_true_of_mem fun i _ => funext fun a => a.elim0
  rw [hall]
  have hsum : ∑ i : S8192x8192.Idx, (extui 32 heterMask natLt_1_32 i).toNat = 33538048 := by
    rw [sum_idx2, ← Cert.IntMath.count_heter]
    refine Finset.sum_congr rfl fun r _ => Finset.sum_congr rfl fun c _ => ?_
    rw [extui_apply, StableHlo.Predicate.toNat_setWidth_bit, heterMask_apply]
    by_cases h : Spec.heterP r.val c.val
    · rw [if_pos h, if_pos h, if_pos rfl]
    · rw [if_neg h, if_neg h, if_neg (by decide)]
  apply BitVec.eq_of_toNat_eq
  show (Finset.fold IntOp.addi 0#32 (extui 32 heterMask natLt_1_32) Finset.univ).toNat = _
  rw [StableHlo.Predicate.toNat_fold_addi _ _ (by rw [hsum]; decide), hsum]
  decide

/-- The counted number of cross-group pairs, as a float at the extended reals. -/
theorem cnt_eq : cnt (F := Ideal) = fun _ => ((33538048 : ℝ) : EReal) := by
  funext j
  unfold cnt
  rw [sitofp_apply, cnt_word]
  show (((BitVec.ofNat 32 33538048).toInt : ℝ) : EReal) = _
  have h : (BitVec.ofNat 32 33538048).toInt = 33538048 := by decide
  rw [h]
  norm_num

/-! ## The two results -/

/-- The zero matrix reads zero. -/
theorem zerosM_apply (j : S8192x8192.Idx) : zerosM (F := Ideal) j = 0 := by
  show Ideal.ofBits .f32 0x00000000#32 = 0
  exact Ideal.ofBits_zero_f32

/-- A select on a decided bit is the `if`. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- The same-group masked sum over the whole matrix. -/
theorem homoTotal (x : FVec Ideal S8192x128 .f32) :
    ∑ i : S8192x8192.Idx, select homoMask (d2m (F := Ideal) x) (zerosM (F := Ideal)) i = Spec.homoSum x := by
  rw [sum_idx2]
  unfold Spec.homoSum Spec.homoTerm
  refine Finset.sum_congr rfl fun r _ => Finset.sum_congr rfl fun c _ => ?_
  rw [select_apply, homoMask_apply, d2m_apply, zerosM_apply, select_ite]

theorem res36_eq (x : FVec Ideal S8192x128 .f32) : res36 (F := Ideal) x = fun _ => Spec.lossHomo x := by
  funext j
  unfold res36 Host.divf Host.reduceAdd
  rw [Ideal.hostDivf_def, Ideal.hostReduceAdd_def,
    Ideal.hostReduceAdd_total reducesTo_S8192x8192_S_d0_1 (fun b => b.elim0), homoTotal]
  show Ideal.div (Ideal.ofBits .f32 0x00000000#32 + Spec.homoSum x) (Ideal.ofBits .f32 0x46C00000#32) = _
  rw [Ideal.ofBits_zero_f32, zero_add]
  rfl

/-- The hinge matrix at a pair. -/
theorem hinge_apply (x : FVec Ideal S8192x128 .f32) (r c : Fin 8192) :
    maximumf (subf (broadcastInDim S8192x8192 ![] bcast_S_S8192x8192 (constant (F := Ideal) S_ .f32 0x3F800000#32)) (d2m (F := Ideal) x))
      (broadcastInDim S8192x8192 ![] bcast_S_S8192x8192 (constant (F := Ideal) S_ .f32 0x00000000#32)) (ix2 r c)
      = max (Spec.one - Spec.d2 x r c) 0 := by
  rw [maximumf_apply, subf_apply, d2m_apply, scalM_apply, scalM_apply]
  show max (Ideal.ofBits .f32 0x3F800000#32 - Spec.d2 x r c) (Ideal.ofBits .f32 0x00000000#32) = _
  rw [Ideal.ofBits_zero_f32]
  rfl

/-- The cross-group masked hinge sum over the whole matrix. -/
theorem heterTotal (x : FVec Ideal S8192x128 .f32) :
    ∑ i : S8192x8192.Idx, select heterMask
        (maximumf (subf (broadcastInDim S8192x8192 ![] bcast_S_S8192x8192 (constant (F := Ideal) S_ .f32 0x3F800000#32)) (d2m (F := Ideal) x))
          (broadcastInDim S8192x8192 ![] bcast_S_S8192x8192 (constant (F := Ideal) S_ .f32 0x00000000#32)))
        (zerosM (F := Ideal)) i = Spec.heterSum x := by
  rw [sum_idx2]
  unfold Spec.heterSum Spec.heterTerm
  refine Finset.sum_congr rfl fun r _ => Finset.sum_congr rfl fun c _ => ?_
  rw [select_apply, heterMask_apply, hinge_apply, zerosM_apply, select_ite]

theorem res43_eq (x : FVec Ideal S8192x128 .f32) : res43 (F := Ideal) x = fun _ => Spec.lossHeter x := by
  funext j
  unfold res43 Host.divf Host.reduceAdd
  simp only []
  rw [Ideal.hostDivf_def, Ideal.hostReduceAdd_def,
    Ideal.hostReduceAdd_total reducesTo_S8192x8192_S_d0_1 (fun b => b.elim0), heterTotal, cnt_eq]
  show Ideal.div (Ideal.ofBits .f32 0x00000000#32 + Spec.heterSum x) ((33538048 : ℝ) : EReal) = _
  rw [Ideal.ofBits_zero_f32, zero_add]
  rfl

end Cert.ReferenceIdeal.Hand

end
-- ==== Proof.lean ====
/-
  The pairwise-distance metric loss: the tiled kernel against its jnp reference, over the extended reals.

  Both programs compute, for `x : [8192, 128]` with rows in groups of four, the mean squared distance over
  the ordered pairs of distinct rows of one group, and the mean of `max (1 - d², 0)` over the pairs whose row
  group comes strictly before the column group (Spec.lean). The kernel walks 64 tiles of 128 rows, keeping two
  running sums; the reference forms the whole 8192 × 8192 matrix and sums it once. Addition of extended reals
  is commutative and associative, so the two groupings of each sum agree; the kernel divides by the literal
  33538048 where the reference counts the cross-group pairs, and there are that many.

  The three frames: each program runs to the end without a fault and leaves its argument as it was. The
  kernel's comes from its launch (the body's obligation at every tile, the launch over the 64 tiles with the
  input array shared by two windows, the host operations around it), the reference's from its straight-line run.
  The idealization rewrote nothing, so there is nothing to preserve.
-/
import proofs.«119142_j23682449670377_1_alg».proof.Defs
import proofs.«119142_j23682449670377_1_alg».proof.Proof.Gen.Kernel
import proofs.«119142_j23682449670377_1_alg».proof.Proof.Gen.KernelIdeal
import proofs.«119142_j23682449670377_1_alg».proof.Proof.Gen.ReferenceIdeal
import proofs.«119142_j23682449670377_1_alg».proof.Proof.Gen.Pre_finite_inputs
import proofs.«119142_j23682449670377_1_alg».proof.Proof.BBody
import proofs.«119142_j23682449670377_1_alg».proof.Proof.BLaunch
import proofs.«119142_j23682449670377_1_alg».proof.Proof.KBody
import proofs.«119142_j23682449670377_1_alg».proof.Proof.KLaunch
import proofs.«119142_j23682449670377_1_alg».proof.Proof.KAcc
import proofs.«119142_j23682449670377_1_alg».proof.Proof.RefRun
import proofs.«119142_j23682449670377_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed, at the word level, runs and leaves its argument unchanged. -/
theorem frame_k : Cert.frame_Kernel := fun m ρ _ =>
  (θ_run (Cert.Kernel.defs (F := Bits)) _ _).mono (fun _ h c => (h c).2.2)
    (Cert.Kernel.Hand.run_main (F := Bits) m ρ fun c => Cert.Kernel.Hand.body_obligation m c)

/-- The idealized kernel runs and leaves its argument unchanged. -/
theorem frame_ki : Cert.frame_KernelIdeal := fun m ρ _ =>
  (θ_run (Cert.KernelIdeal.defs (F := Ideal)) _ _).mono (fun _ h c => (h c).2.2)
    (Cert.KernelIdeal.Hand.run_main (F := Ideal) m ρ fun c => Cert.KernelIdeal.Hand.body_obligation m c)

/-- The reference runs and leaves its argument unchanged. -/
theorem frame_ri : Cert.frame_ReferenceIdeal := fun m ρ _ =>
  (θ_run (Cert.ReferenceIdeal.defs (F := Ideal)) _ _).mono (fun _ h c => (h c).2.2)
    (Cert.ReferenceIdeal.Hand.run (F := Ideal) m ρ)

/-- From memories that agree on the input both programs end with the two losses of that input. -/
theorem algebraic : Cert.algebraic_KernelIdeal_ReferenceIdeal := by
  intro m ρ m' ρ' _ hagree
  refine ⟨fun c _ => Cert.Spec.lossHomo (Cert.KernelIdeal.Hand.X m c), fun c _ => Cert.Spec.lossHeter (Cert.KernelIdeal.Hand.X m c), ?_, ?_⟩
  · refine (θ_run (Cert.KernelIdeal.defs (F := Ideal)) _ _).mono (fun _ h c => ⟨?_, ?_, (h c).2.2⟩)
      (Cert.KernelIdeal.Hand.run_main (F := Ideal) m ρ fun c => Cert.KernelIdeal.Hand.body_obligation m c)
    · exact (h c).1.trans (Cert.KernelIdeal.Hand.res6_final m c)
    · exact (h c).2.1.trans (Cert.KernelIdeal.Hand.res7_final m c)
  · refine (θ_run (Cert.ReferenceIdeal.defs (F := Ideal)) _ _).mono (fun _ h c => ⟨?_, ?_, (h c).2.2⟩)
      (Cert.ReferenceIdeal.Hand.run (F := Ideal) m' ρ')
    · rw [(h c).1, hagree c]; exact Cert.ReferenceIdeal.Hand.res36_eq _
    · rw [(h c).2.1, hagree c]; exact Cert.ReferenceIdeal.Hand.res43_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
